-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S20000x256 : Shape := ⟨2, ![20000, 256]⟩
abbrev S2x500000 : Shape := ⟨2, ![2, 500000]⟩
abbrev S256x512 : Shape := ⟨2, ![256, 512]⟩
abbrev S256 : Shape := ⟨1, ![256]⟩
abbrev S1x256 : Shape := ⟨2, ![1, 256]⟩
abbrev S1 : Shape := ⟨1, ![1]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S20000x256 : S_.BroadcastsInDim S20000x256 (![] : Fin 0 → Fin S20000x256.rank)
  reducesTo_S20000x256_S_d0_1 : S20000x256.ReducesTo [0, 1] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1x256 .f32) (main_arg6 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S1x256 .f32 := Host.absf main_arg5
  let main_cst_6 : FVec F S_ .f32 := constant S_ .f32 0x7F800000#32
  let main_v20 : FVec F S1x256 .f32 := broadcastInDim S1x256 ![] bcast_S_S1x256 main_cst_6
  let main_v21 : IVec S1x256 1 := cmpf .olt main_v19 main_v20
  let main_c_7 : IVec S_ 1 := constantI S_ 1 1#1
  let main_v22 : IVec S_ 1 := (fun x v => Host.reduce IntOp.andi x v reducesTo_S1x256_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S50000x256 .f32) (main_arg1 : FVec F S20000x256 .f32) (main_arg2 : IVec S2x500000 32) (main_arg3 : FVec F S256x512 .f32) (main_arg4 : FVec F S256 .f32) (main_arg5 : FVec F S1x256 .f32) (main_arg6 : FVec F S1 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S20000x256 .f32 := Host.absf main_arg1
  let main_cst_0 : FVec F S_ .f32 := constant S_ .f32 0x7F800000#32
  let main_v5 : FVec F S20000x256 .f32 := broadcastInDim S20000x256 ![] bcast_S_S20000x256 main_cst_0
  let main_v6 : IVec S20000x256 1 := cmpf .olt main_v4 main_v5
  let main_c_1 : IVec S_ 1 := constantI S_ 1 1#1
  let main_v7 : IVec S_ 1 := (fun x v => Host.reduce IntOp.andi x v reducesTo_S20000x256_S_d0_1 h_S_) main_v6 main_c_1
  let main_v8 : IVec S_ 1 := andi main_v3 main_v7
  let main_v9 : FVec F S256x512 .f32 := Host.absf main_arg3
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_v13 main_v16
-- ==== Kernel.lean ====
abbrev S50000x256 : Shape := ⟨2, ![50000, 256]⟩
abbrev S20000x256 : Shape := ⟨2, ![20000, 256]⟩
abbrev S2x500000 : Shape := ⟨2, ![2, 500000]⟩
abbrev S256x512 : Shape := ⟨2, ![256, 512]⟩
abbrev S256 : Shape := ⟨1, ![256]⟩
abbrev S1x256 : Shape := ⟨2, ![1, 256]⟩
abbrev S1 : Shape := ⟨1, ![1]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x256 : Shape := ⟨2, ![500000, 256]⟩
abbrev S256x256 : Shape := ⟨2, ![256, 256]⟩
abbrev S256x1 : Shape := ⟨2, ![256, 1]⟩
abbrev S1x1 : Shape := ⟨2, ![1, 1]⟩
abbrev S4096x256 : Shape := ⟨2, ![4096, 256]⟩
abbrev S4096 : Shape := ⟨1, ![4096]⟩
abbrev S4096x1 : Shape := ⟨2, ![4096, 1]⟩

abbrev nBuf : Space → Nat
  | .hbm => 37
  | .vmem => 11
  | .smem => 0
  | _ => 0

abbrev bufTy : (tb : Table) → Fin (tcTables nBuf tb) → BufTy
  | .hbm, ⟨0, _⟩ => ⟨S50000x256, .f32⟩
  | .hbm, ⟨1, _⟩ => ⟨S20000x256, .f32⟩
  | .hbm, ⟨2, _⟩ => ⟨S2x500000, .i32⟩
  | .hbm, ⟨3, _⟩ => ⟨S256x512, .f32⟩
  | .hbm, ⟨4, _⟩ => ⟨S256, .f32⟩
  | .hbm, ⟨5, _⟩ => ⟨S1x256, .f32⟩
  | .hbm, ⟨6, _⟩ => ⟨S1, .f32⟩
  | .hbm, ⟨7, _⟩ => ⟨S1x500000, .i32⟩
  | .hbm, ⟨8, _⟩ => ⟨S500000, .i32⟩
  | .hbm, ⟨9, _⟩ => ⟨S1x500000, .i32⟩
  | .hbm, ⟨10, _⟩ => ⟨S500000, .i32⟩
  | .hbm, ⟨11, _⟩ => ⟨S_, .i32⟩
  | .hbm, ⟨12, _⟩ => ⟨S500000, .i32⟩
  | .hbm, ⟨13, _⟩ => ⟨S500000, .i1⟩
  | .hbm, ⟨14, _⟩ => ⟨S_, .i32⟩
  | .hbm, ⟨15, _⟩ => ⟨S500000, .i32⟩
  | .hbm, ⟨16, _⟩ => ⟨S500000, .i32⟩
  | .hbm, ⟨17, _⟩ => ⟨S500000, .i32⟩
  | .hbm, ⟨18, _⟩ => ⟨S500000x1, .i32⟩
  | .hbm, ⟨19, _⟩ => ⟨S500000x256, .f32⟩
  | .hbm, ⟨20, _⟩ => ⟨S_, .i32⟩
  | .hbm, ⟨21, _⟩ => ⟨S500000, .i32⟩
  | .hbm, ⟨22, _⟩ => ⟨S500000, .i1⟩
  | .hbm, ⟨23, _⟩ => ⟨S_, .i32⟩
  | .hbm, ⟨24, _⟩ => ⟨S500000, .i32⟩
  | .hbm, ⟨25, _⟩ => ⟨S500000, .i32⟩
  | .hbm, ⟨26, _⟩ => ⟨S500000, .i32⟩
  | .hbm, ⟨27, _⟩ => ⟨S500000x1, .i32⟩
  | .hbm, ⟨28, _⟩ => ⟨S500000x256, .f32⟩
  | .hbm, ⟨29, _⟩ => ⟨S256x256, .f32⟩
  | .hbm, ⟨30, _⟩ => ⟨S256x256, .f32⟩
  | .hbm, ⟨31, _⟩ => ⟨S256x256, .f32⟩
  | .hbm, ⟨32, _⟩ => ⟨S256x256, .f32⟩
  | .hbm, ⟨33, _⟩ => ⟨S256x1, .f32⟩
  | .hbm, ⟨34, _⟩ => ⟨S1x256, .f32⟩
  | .hbm, ⟨35, _⟩ => ⟨S1x1, .f32⟩
  | .hbm, ⟨36, _⟩ => ⟨S500000, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S256x256, .f32⟩
  | .local _ .vmem, ⟨5, _⟩ => ⟨S256x256, .f32⟩
  | .local _ .vmem, ⟨6, _⟩ => ⟨S1x256, .f32⟩
  | .local _ .vmem, ⟨7, _⟩ => ⟨S256x1, .f32⟩
  | .local _ .vmem, ⟨8, _⟩ => ⟨S1x1, .f32⟩
  | .local _ .vmem, ⟨9, _⟩ => ⟨S4096, .f32⟩
  | .local _ .vmem, ⟨10, _⟩ => ⟨S4096, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![123], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  slices_S256x512_S256x256_0_0 : S256x512.Slices ![0, 0] S256x256
  transposes_S256x256_S256x256_1_0 : S256x256.Transposes [1, 0] S256x256
  slices_S256x512_S256x256_0_256 : S256x512.Slices ![0, 256] S256x256
  transposes_S1x256_S256x1_1_0 : S1x256.Transposes [1, 0] S256x1
  shapeCasts_S256_S1x256 : S256.ShapeCasts S1x256
  shapeCasts_S1_S1x1 : S1.ShapeCasts S1x1
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  shapeCasts_S4096x1_S4096 : S4096x1.ShapeCasts S4096
  inb_S4096_S4096_0 : ∀ a, (![0] : Fin 1 → Nat) a + S4096.size a ≤ S4096.size a
  h_S4096 : 0 < S4096.numel
  gather_S50000x256_S500000x1_S500000x256_1_0_n_n_0_1_1256_wf : GatherDims.WF S50000x256 S500000x1 S500000x256 [1] [0] [] [0] [] 1 ![1, 256]
  gather_S20000x256_S500000x1_S500000x256_1_0_n_n_0_1_1256_wf : GatherDims.WF S20000x256 S500000x1 S500000x256 [1] [0] [] [0] [] 1 ![1, 256]
  dot_S4096x256_S256x256_S4096x256_1_0_0_1_n_n_wf : DotDims.WF S4096x256 S256x256 S4096x256 [1] [0] [0] [1] [] []
  dot_S4096x256_S256x1_S4096x1_1_0_0_1_n_n_wf : DotDims.WF S4096x256 S256x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S4096x256.size a < S500000x256.size a
  hwx0_0 : ∀ i : grid0.Coords, EltTy.bits .f32 = 32 ∨ (Rect.unit (s := S500000x256) (fun a => cc0_transform_0 i a * S4096x256.size a) (fun a => (Pipeline.Clip.of (cc0_transform_0 i a) (S4096x256.size a) (S500000x256.size a)).extent (S4096x256.size a)) fun a => Pipeline.Clip.inb (Pipeline.Clip.ok_of (hstart0_0 i a))).WholeWords (EltTy.packing .f32)
  hwxs0_0 : ∀ i : grid0.Coords, EltTy.bits .f32 = 32 ∨ (Rect.unit (s := S4096x256) (fun _ => 0) (fun a => (Pipeline.Clip.of (cc0_transform_0 i a) (S4096x256.size a) (S500000x256.size a)).extent (S4096x256.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S4096x256.size a < S500000x256.size a
  hwx0_1 : ∀ i : grid0.Coords, EltTy.bits .f32 = 32 ∨ (Rect.unit (s := S500000x256) (fun a => cc0_transform_1 i a * S4096x256.size a) (fun a => (Pipeline.Clip.of (cc0_transform_1 i a) (S4096x256.size a) (S500000x256.size a)).extent (S4096x256.size a)) fun a => Pipeline.Clip.inb (Pipeline.Clip.ok_of (hstart0_1 i a))).WholeWords (EltTy.packing .f32)
  hwxs0_1 : ∀ i : grid0.Coords, EltTy.bits .f32 = 32 ∨ (Rect.unit (s := S4096x256) (fun _ => 0) (fun a => (Pipeline.Clip.of (cc0_transform_1 i a) (S4096x256.size a) (S500000x256.size a)).extent (S4096x256.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S256x1.size a
  hwx0_5 : ∀ i : grid0.Coords, EltTy.bits .f32 = 32 ∨ (Rect.block (s := S256x1) S256x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hstart0_7 : ∀ (i : grid0.Coords) a, cc0_transform_7 i a * S4096.size a < S500000.size a
  hwx0_7 : ∀ i : grid0.Coords, EltTy.bits .f32 = 32 ∨ (Rect.unit (s := S500000) (fun a => cc0_transform_7 i a * S4096.size a) (fun a => (Pipeline.Clip.of (cc0_transform_7 i a) (S4096.size a) (S500000.size a)).extent (S4096.size a)) fun a => Pipeline.Clip.inb (Pipeline.Clip.ok_of (hstart0_7 i a))).WholeWords (EltTy.packing .f32)
  hwxs0_7 : ∀ i : grid0.Coords, EltTy.bits .f32 = 32 ∨ (Rect.unit (s := S4096) (fun _ => 0) (fun a => (Pipeline.Clip.of (cc0_transform_7 i a) (S4096.size a) (S500000.size a)).extent (S4096.size a)) fun a => (Nat.zero_add _).trans_le (Pipeline.Clip.extent_le (Pipeline.Clip.ok_of (hstart0_7 i a)))).WholeWords (EltTy.packing .f32)

variable [Facts₀]

def gather_S50000x256_S500000x1_S500000x256_1_0_n_n_0_1_1256 : GatherDims S50000x256 S500000x1 S500000x256 where
  offsetDims := [1]
  collapsedSliceDims := [0]
  operandBatchingDims := []
  startIndicesBatchingDims := []
  startIndexMap := [0]
  indexVectorDim := 1
  sliceSizes := ![1, 256]
  wf := gather_S50000x256_S500000x1_S500000x256_1_0_n_n_0_1_1256_wf
def gather_S20000x256_S500000x1_S500000x256_1_0_n_n_0_1_1256 : GatherDims S20000x256 S500000x1 S500000x256 where
  offsetDims := [1]
  collapsedSliceDims := [0]
  operandBatchingDims := []
  startIndicesBatchingDims := []
  startIndexMap := [0]
  indexVectorDim := 1
  sliceSizes := ![1, 256]
  wf := gather_S20000x256_S500000x1_S500000x256_1_0_n_n_0_1_1256_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x1_S4096x1_1_0_0_1_n_n : DotDims S4096x256 S256x1 S4096x1 where
  lhsContracting := [1]
  rhsContracting := [0]
  lhsNonContracting := [0]
  rhsNonContracting := [1]
  lhsBatch := []
  rhsBatch := []
  wf := dot_S4096x256_S256x1_S4096x1_1_0_0_1_n_n_wf

abbrev win0_0 : Pipeline.Window sig grid0 :=
  Pipeline.Window.ofSpecClip (Memref.whole main_v10) S4096x256.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v17) S4096x256.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v19) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S256x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpecClip (Memref.whole main_v25) S4096.size cc0_transform_7 reads0_7 true false 2 stage0_7 sem0_7
    hrank0 hreads0_7 hstart0_7 nbuf0_7 (Memref.isWhole_whole _) hwx0_7 hwxs0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x256 : Shape := ⟨2, ![50000, 256]⟩
abbrev S20000x256 : Shape := ⟨2, ![20000, 256]⟩
abbrev S2x500000 : Shape := ⟨2, ![2, 500000]⟩
abbrev S256x512 : Shape := ⟨2, ![256, 512]⟩
abbrev S256 : Shape := ⟨1, ![256]⟩
abbrev S1x256 : Shape := ⟨2, ![1, 256]⟩
abbrev S1 : Shape := ⟨1, ![1]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x256 : Shape := ⟨2, ![500000, 256]⟩
abbrev S500000x512 : Shape := ⟨2, ![500000, 512]⟩
abbrev S512x256 : Shape := ⟨2, ![512, 256]⟩
abbrev S256x1 : Shape := ⟨2, ![256, 1]⟩
abbrev S1x1 : Shape := ⟨2, ![1, 1]⟩

abbrev nBuf : Space → Nat
  | .hbm => 44
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S20000x256, .f32⟩
  | .hbm, ⟨2, _⟩ => ⟨S2x500000, .i32⟩
  | .hbm, ⟨3, _⟩ => ⟨S256x512, .f32⟩
  | .hbm, ⟨4, _⟩ => ⟨S256, .f32⟩
  | .hbm, ⟨5, _⟩ => ⟨S1x256, .f32⟩
  | .hbm, ⟨6, _⟩ => ⟨S1, .f32⟩
  | .hbm, ⟨7, _⟩ => ⟨S1x500000, .i32⟩
  | .hbm, ⟨8, _⟩ => ⟨S500000, .i32⟩
  | .hbm, ⟨9, _⟩ => ⟨S1x500000, .i32⟩
  | .hbm, ⟨10, _⟩ => ⟨S500000, .i32⟩
  | .hbm, ⟨11, _⟩ => ⟨S_, .i32⟩
  | .hbm, ⟨12, _⟩ => ⟨S500000, .i32⟩
  | .hbm, ⟨13, _⟩ => ⟨S500000, .i1⟩
  | .hbm, ⟨14, _⟩ => ⟨S_, .i32⟩
  | .hbm, ⟨15, _⟩ => ⟨S500000, .i32⟩
  | .hbm, ⟨16, _⟩ => ⟨S500000, .i32⟩
  | .hbm, ⟨17, _⟩ => ⟨S500000, .i32⟩
  | .hbm, ⟨18, _⟩ => ⟨S500000x1, .i32⟩
  | .hbm, ⟨19, _⟩ => ⟨S500000x256, .f32⟩
  | .hbm, ⟨20, _⟩ => ⟨S_, .i32⟩
  | .hbm, ⟨21, _⟩ => ⟨S500000, .i32⟩
  | .hbm, ⟨22, _⟩ => ⟨S500000, .i1⟩
  | .hbm, ⟨23, _⟩ => ⟨S_, .i32⟩
  | .hbm, ⟨24, _⟩ => ⟨S500000, .i32⟩
  | .hbm, ⟨25, _⟩ => ⟨S500000, .i32⟩
  | .hbm, ⟨26, _⟩ => ⟨S500000, .i32⟩
  | .hbm, ⟨27, _⟩ => ⟨S500000x1, .i32⟩
  | .hbm, ⟨28, _⟩ => ⟨S500000x256, .f32⟩
  | .hbm, ⟨29, _⟩ => ⟨S500000x512, .f32⟩
  | .hbm, ⟨30, _⟩ => ⟨S512x256, .f32⟩
  | .hbm, ⟨31, _⟩ => ⟨S500000x256, .f32⟩
  | .hbm, ⟨32, _⟩ => ⟨S1x256, .f32⟩
  | .hbm, ⟨33, _⟩ => ⟨S500000x256, .f32⟩
  | .hbm, ⟨34, _⟩ => ⟨S500000x256, .f32⟩
  | .hbm, ⟨35, _⟩ => ⟨S_, .f32⟩
  | .hbm, ⟨36, _⟩ => ⟨S500000x256, .f32⟩
  | .hbm, ⟨37, _⟩ => ⟨S500000x256, .f32⟩
  | .hbm, ⟨38, _⟩ => ⟨S256x1, .f32⟩
  | .hbm, ⟨39, _⟩ => ⟨S500000x1, .f32⟩
  | .hbm, ⟨40, _⟩ => ⟨S1x1, .f32⟩
  | .hbm, ⟨41, _⟩ => ⟨S500000x1, .f32⟩
  | .hbm, ⟨42, _⟩ => ⟨S500000x1, .f32⟩
  | .hbm, ⟨43, _⟩ => ⟨S500000, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_cst : Ref sig .tc := ⟨.hbm, 35, rfl⟩
abbrev main_call0_v0 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  concatenates_S500000x256_S500000x256_S500000x512_d1 : Shape.Concatenates [S500000x256, S500000x256] S500000x512 1
  transposes_S256x512_S512x256_1_0 : S256x512.Transposes [1, 0] S512x256
  bcast_S256_S1x256_1 : S256.BroadcastsInDim S1x256 (![1] : Fin 1 → Fin S1x256.rank)
  bcast_S1x256_S500000x256_0_1 : S1x256.BroadcastsInDim S500000x256 (![0, 1] : Fin 2 → Fin S500000x256.rank)
  bcast_S_S500000x256 : S_.BroadcastsInDim S500000x256 (![] : Fin 0 → Fin S500000x256.rank)
  transposes_S1x256_S256x1_1_0 : S1x256.Transposes [1, 0] S256x1
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  shapeCasts_S500000x1_S500000 : S500000x1.ShapeCasts S500000
  gather_S50000x256_S500000x1_S500000x256_1_0_n_n_0_1_1256_wf : GatherDims.WF S50000x256 S500000x1 S500000x256 [1] [0] [] [0] [] 1 ![1, 256]
  gather_S20000x256_S500000x1_S500000x256_1_0_n_n_0_1_1256_wf : GatherDims.WF S20000x256 S500000x1 S500000x256 [1] [0] [] [0] [] 1 ![1, 256]
  dot_S500000x512_S512x256_S500000x256_1_0_0_1_n_n_wf : DotDims.WF S500000x512 S512x256 S500000x256 [1] [0] [0] [1] [] []
  dot_S500000x256_S256x1_S500000x1_1_0_0_1_n_n_wf : DotDims.WF S500000x256 S256x1 S500000x1 [1] [0] [0] [1] [] []

variable [Facts₀]

def gather_S50000x256_S500000x1_S500000x256_1_0_n_n_0_1_1256 : GatherDims S50000x256 S500000x1 S500000x256 where
  offsetDims := [1]
  collapsedSliceDims := [0]
  operandBatchingDims := []
  startIndicesBatchingDims := []
  startIndexMap := [0]
  indexVectorDim := 1
  sliceSizes := ![1, 256]
  wf := gather_S50000x256_S500000x1_S500000x256_1_0_n_n_0_1_1256_wf
def gather_S20000x256_S500000x1_S500000x256_1_0_n_n_0_1_1256 : GatherDims S20000x256 S500000x1 S500000x256 where
  offsetDims := [1]
  collapsedSliceDims := [0]
  operandBatchingDims := []
  startIndicesBatchingDims := []
  startIndexMap := [0]
  indexVectorDim := 1
  sliceSizes := ![1, 256]
  wf := gather_S20000x256_S500000x1_S500000x256_1_0_n_n_0_1_1256_wf
def dot_S500000x512_S512x256_S500000x256_1_0_0_1_n_n : DotDims S500000x512 S512x256 S500000x256 where
  lhsContracting := [1]
  rhsContracting := [0]
  lhsNonContracting := [0]
  rhsNonContracting := [1]
  lhsBatch := []
  rhsBatch := []
  wf := dot_S500000x512_S512x256_S500000x256_1_0_0_1_n_n_wf
def dot_S500000x256_S256x1_S500000x1_1_0_0_1_n_n : DotDims S500000x256 S256x1 S500000x1 where
  lhsContracting := [1]
  rhsContracting := [0]
  lhsNonContracting := [0]
  rhsNonContracting := [1]
  lhsBatch := []
  rhsBatch := []
  wf := dot_S500000x256_S256x1_S500000x1_1_0_0_1_n_n_wf

class Facts : Prop extends Facts₀ where

variable [Facts]
-- ==== Proof.Kernel.Body.lean ====
/-
  The kernel body, run once on whole staging buffers (for every float instance).

  The body reads its seven input buffers whole — two blocks of 4096 gathered rows, the two halves of the first layer's
  weights, the first bias as one row, the second layer's weights as one column, the second bias as one entry —,
  reads the result's buffer (a value it never uses) and stores ONE vector of 4096 entries over the whole result
  buffer. So after the body every input buffer holds what it held and the result's buffer holds the body's pure
  function of the seven values read, `payload`.
-/
import proofs.«140835_j34230889349178_1_alg».proof.Proof.Gen.Kernel.Frame
import proofs.«140835_j34230889349178_1_alg».proof.Proof.Gen.Kernel.Skeleton
import Idealize.ShloMosaic.Lib.Pipeline.Value

set_option maxRecDepth 16384

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

/-- The body's pure function: the 4096 results from the seven values the body reads. -/
abbrev payload (x0 x1 : Vec F S4096x256 .f32) (x2 x3 : Vec F S256x256 .f32) (x4 : Vec F S1x256 .f32)
    (x5 : Vec F S256x1 .f32) (x6 : Vec F S1x1 .f32) : FVec F S4096 .f32 :=
  k0_pay1 x0 x1 x2 x3 x4 x5 x6

/-- The whole-buffer rectangles start at the origin. -/
theorem off2 : (![0, 0] : Fin 2 → ℕ) = fun _ => 0 := funext fun a => by fin_cases a <;> rfl
theorem off1 : (![0] : Fin 1 → ℕ) = fun _ => 0 := funext fun a => by fin_cases a; rfl

/-- The result's one store goes through the whole-buffer rectangle. -/
abbrev rOut : Rect S4096 := Rect.unit (s := S4096) ![0] S4096.size inb_S4096_S4096_0

/-- One store through the whole-buffer rectangle covers every entry of the result's buffer. -/
theorem cover_out (w : Vec F S4096 .f32) (y : S4096.Idx) :
    ∃ pc ∈ ([⟨rOut, w⟩] : List (View.Piece (Elt F) S4096 .f32)), y ∈ pc.1.set :=
  View.cover_of_tiled [⟨rOut, w⟩] S4096.size (by rfl) y

set_option maxHeartbeats 1000000 in
/-- The body on whole buffers holding `x0 … x6` (the result's holding anything) runs to the end, leaves the seven
    inputs as they were and the result's buffer at `payload x0 … x6`. -/
theorem sound_kernel (c : Dev nD) (E : Set ℕ) (i : grid0.Coords)
    (arg1 : Memref sig .tc .vmem S4096x256 .f32) (harg1 : arg1.IsWhole) (arg2 : Memref sig .tc .vmem S4096x256 .f32) (harg2 : arg2.IsWhole)
    (arg3 : Memref sig .tc .vmem S256x256 .f32) (harg3 : arg3.IsWhole) (arg4 : Memref sig .tc .vmem S256x256 .f32) (harg4 : arg4.IsWhole)
    (arg5 : Memref sig .tc .vmem S1x256 .f32) (harg5 : arg5.IsWhole) (arg6 : Memref sig .tc .vmem S256x1 .f32) (harg6 : arg6.IsWhole)
    (arg7 : Memref sig .tc .vmem S1x1 .f32) (harg7 : arg7.IsWhole) (arg8 : Memref sig .tc .vmem S4096 .f32) (harg8 : arg8.IsWhole)
    (x0 x1 : Vec F S4096x256 .f32) (x2 x3 : Vec F S256x256 .f32) (x4 : Vec F S1x256 .f32) (x5 : Vec F S256x1 .f32) (x6 : Vec F S1x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (payload x0 x1 x2 x3 x4 x5 x6)) -∗ K ⟨⟩))
      ⊢ wp frame (wpE (defs₀ (F := F)) Variants.none c none) E
          (cc0__mlp_kernel i arg1 harg1 arg2 harg2 arg3 harg3 arg4 harg4 arg5 harg5 arg6 harg6 arg7 harg7 arg8 harg8) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  rw [View.read_writes_eq_canon _ _ _ (cover_out _), View.canon_unit_zero off1]
  simp only [View.readAt_eq_ld]
  rw [View.ld_unit_zero (S := S4096x256) off2, View.ld_unit_zero (S := S4096x256) off2, View.ld_unit_zero (S := S256x256) off2,
    View.ld_unit_zero (S := S256x256) off2, View.ld_unit_zero (S := S1x256) off2, View.ld_unit_zero (S := S256x1) off2,
    View.ld_unit_zero (S := S1x1) off2]

end Cert.Proof.K

end
-- ==== Proof.Kernel.Run.lean ====
/-
  The word-level program's frame: it runs to the end and leaves its arguments as they were.

  At the word level the matrix unit's product is a function of its whole operands, so what the body leaves in the
  result's buffer on the last grid point depends on the words the cut fetch left past the arrays' end, which nothing
  names. The frame does not need them: the proof data name what the seven input buffers hold (the two row buffers on
  the rows inside the array) and say nothing of the result's buffer, which is handed to the body at any contents and
  taken back at any contents. The result array is no argument, and nothing runs after the region.
-/
import proofs.«140835_j34230889349178_1_alg».proof.Proof.Kernel.Body

set_option maxRecDepth 16384

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf ΦA)

variable {F : FTy → Type} [FloatOps F]
local notation "𝕄" => MT nD τ sig Unit (Elt F) ℕ (UR sig nD τ) ℕ

variable (m : (ℓ : Loc nD τ sig) → Buf (Elt F) ℓ) (ρ : Dev nD → PrngReg)

/-- The one window whose buffer the proof data do not name: the result's. -/
def forgets : Fin 8 → Bool := fun w => w.val == 7

/-- A row buffer after the fetch at point `t`: the block's rows inside the array, filled out with the zero word. -/
def gBuf (c : Dev nD) (t : Fin cfg0.N) : S4096x256.Idx → Elt F .f32 :=
  win0_0.fill (grid0.coords t) (fun _ => Scalar.ofBits (F := F) .f32 0#32) (iblk m c 0 t)
def dBuf (c : Dev nD) (t : Fin cfg0.N) : S4096x256.Idx → Elt F .f32 :=
  win0_1.fill (grid0.coords t) (fun _ => Scalar.ofBits (F := F) .f32 0#32) (iblk m c 1 t)

/-- The proof data of the one pipeline on core `c`: the arrays as the region finds them; after the body each input's
    buffer at its block (the two row buffers filled out), the result's unnamed; the scoped rest and the generator
    register as invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => gBuf m c t
    | ⟨1, _⟩ => dBuf m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
  Φ _ := ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = gBuf m c t := by dsimp only [dats]
theorem after0_1 (c : Dev nD) (t : Fin cfg0.N) : (dats m 0 c).after 1 t = dBuf m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- The row windows are fetched at every point: the body finds the block's rows inside the array, and `d` elsewhere. -/
theorem before0_0 (c : Dev nD) (t : Fin cfg0.N) (d) :
    (dats m 0 c).before 0 t d = win0_0.fill (grid0.coords t) d (iblk m c 0 t) := by
  unfold Dat.before; rw [if_pos (fetch0_0 t)]; unfold Dat.fetched Dat.blockOf iblk; rw [A_eq]
theorem before0_1 (c : Dev nD) (t : Fin cfg0.N) (d) :
    (dats m 0 c).before 1 t d = win0_1.fill (grid0.coords t) d (iblk m c 1 t) := by
  unfold Dat.before; rw [if_pos (fetch0_1 t)]; unfold Dat.fetched Dat.blockOf iblk; rw [A_eq]
/-- The weights and biases are fetched once and found at every point. -/
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- Cut back to the rows inside the array, a filled-out row buffer is the block. -/
theorem cut_gBuf (c : Dev nD) (t : Fin cfg0.N) : win0_0.cut (grid0.coords t) (gBuf m c t) = iblk m c 0 t :=
  win0_0.cut_fill _ _ _
theorem cut_dBuf (c : Dev nD) (t : Fin cfg0.N) : win0_1.cut (grid0.coords t) (dBuf m c t) = iblk m c 1 t :=
  win0_1.cut_fill _ _ _

/-- What the body is called with at point `t`: the invariant, the core's dues, each input's current buffer at what it
    holds and the result's at anything. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ X, owns (c : Thread nD τ) (st0_7 t) fullShare X))

/-- What it returns: the two row windows stated on the rows their transfers move, the result's buffer at anything. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ (∃ d, owns (c : Thread nD τ) (st0_1 t) fullShare (win0_1.fill (grid0.coords t) d (win0_1.cut (grid0.coords t) ((dats m 0 c).after 1 t))))
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ X, owns (c : Thread nD τ) (st0_7 t) fullShare X))

/-- The body at any point: the inputs' buffers hold their blocks (the row buffers filled out with whatever the fetch
    left); the body leaves them so, and the result's buffer at something. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, cut_gBuf, cut_dBuf]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (win0_0.fill (grid0.coords t) d0 (iblk m c 0 t)) (win0_1.fill (grid0.coords t) d1 (iblk m c 1 t))
    (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexists d0; iexact H0
  isplitl [H1]; · iexists d1; iexact H1
  isplitl [H2]; · iexact H2
  isplitl [H3]; · iexact H3
  isplitl [H4]; · iexact H4
  isplitl [H5]; · iexact H5
  isplitl [H6]; · iexact H6
  iexists _; iexact H7

/-- The library's body obligation, at every point, the result's window unnamed. -/
theorem body_obligation (c : Dev nD) :
    BodyObligationLoose (dats (F := F) m 0 c) (defs₀ (F := F)) Variants.none () Set.univ forgets := fun t => by
  rw [bigSep_W0, bigSep_W0]
  exact sound_body m c t

/-! ## The run and the frame -/

set_option backward.isDefEq.respectTransparency.types false in
/-- From any memory with zero counters every weakly fair execution ends, every input array of the pipeline unchanged and
    every other unscoped buffer as the region found it; of the result array only that it was overwritten block by block. -/
theorem run_main : θ_run defs (onTc (τ := τ) (main (F := F))) (s₀ m ρ)
    (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget) (hshare := fun c => ((dats m 0 c).toRForget forgets).share_full fun _ => rfl)
    (howed := fun _ _ => rfl) (V := V m) (hmain := hmain m Variants.none) (hA := A_eq m) (hΦ := fun _ _ => rfl)

/-- The program runs to the end and leaves its seven arguments as they were: no window stages an argument (the host
    operations before the region make the arrays the windows stage), so each argument is a buffer that passes the
    region by, found at the end as the region found it, which is as it was launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) (run_main m ρ)

end Cert.Proof.K

end
-- ==== Proof.KernelIdeal.Body.lean ====
/-
  The kernel body, run once on whole staging buffers (for every float instance).

  The body reads its seven input buffers whole — two blocks of 4096 gathered rows, the two halves of the first layer's
  weights, the first bias as one row, the second layer's weights as one column, the second bias as one entry —,
  reads the result's buffer (a value it never uses) and stores ONE vector of 4096 entries over the whole result
  buffer. So after the body every input buffer holds what it held and the result's buffer holds the body's pure
  function of the seven values read, `payload`.
-/
import proofs.«140835_j34230889349178_1_alg».proof.Proof.Gen.KernelIdeal.Frame
import proofs.«140835_j34230889349178_1_alg».proof.Proof.Gen.KernelIdeal.Skeleton
import Idealize.ShloMosaic.Lib.Pipeline.Value

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

/-- The body's pure function: the 4096 results from the seven values the body reads. -/
abbrev payload (x0 x1 : Vec F S4096x256 .f32) (x2 x3 : Vec F S256x256 .f32) (x4 : Vec F S1x256 .f32)
    (x5 : Vec F S256x1 .f32) (x6 : Vec F S1x1 .f32) : FVec F S4096 .f32 :=
  k0_pay1 x0 x1 x2 x3 x4 x5 x6

/-- The whole-buffer rectangles start at the origin. -/
theorem off2 : (![0, 0] : Fin 2 → ℕ) = fun _ => 0 := funext fun a => by fin_cases a <;> rfl
theorem off1 : (![0] : Fin 1 → ℕ) = fun _ => 0 := funext fun a => by fin_cases a; rfl

/-- The result's one store goes through the whole-buffer rectangle. -/
abbrev rOut : Rect S4096 := Rect.unit (s := S4096) ![0] S4096.size inb_S4096_S4096_0

/-- One store through the whole-buffer rectangle covers every entry of the result's buffer. -/
theorem cover_out (w : Vec F S4096 .f32) (y : S4096.Idx) :
    ∃ pc ∈ ([⟨rOut, w⟩] : List (View.Piece (Elt F) S4096 .f32)), y ∈ pc.1.set :=
  View.cover_of_tiled [⟨rOut, w⟩] S4096.size (by rfl) y

set_option maxHeartbeats 1000000 in
/-- The body on whole buffers holding `x0 … x6` (the result's holding anything) runs to the end, leaves the seven
    inputs as they were and the result's buffer at `payload x0 … x6`. -/
theorem sound_kernel (c : Dev nD) (E : Set ℕ) (i : grid0.Coords)
    (arg1 : Memref sig .tc .vmem S4096x256 .f32) (harg1 : arg1.IsWhole) (arg2 : Memref sig .tc .vmem S4096x256 .f32) (harg2 : arg2.IsWhole)
    (arg3 : Memref sig .tc .vmem S256x256 .f32) (harg3 : arg3.IsWhole) (arg4 : Memref sig .tc .vmem S256x256 .f32) (harg4 : arg4.IsWhole)
    (arg5 : Memref sig .tc .vmem S1x256 .f32) (harg5 : arg5.IsWhole) (arg6 : Memref sig .tc .vmem S256x1 .f32) (harg6 : arg6.IsWhole)
    (arg7 : Memref sig .tc .vmem S1x1 .f32) (harg7 : arg7.IsWhole) (arg8 : Memref sig .tc .vmem S4096 .f32) (harg8 : arg8.IsWhole)
    (x0 x1 : Vec F S4096x256 .f32) (x2 x3 : Vec F S256x256 .f32) (x4 : Vec F S1x256 .f32) (x5 : Vec F S256x1 .f32) (x6 : Vec F S1x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (payload x0 x1 x2 x3 x4 x5 x6)) -∗ K ⟨⟩))
      ⊢ wp frame (wpE (defs₀ (F := F)) Variants.none c none) E
          (cc0__mlp_kernel i arg1 harg1 arg2 harg2 arg3 harg3 arg4 harg4 arg5 harg5 arg6 harg6 arg7 harg7 arg8 harg8) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  rw [View.read_writes_eq_canon _ _ _ (cover_out _), View.canon_unit_zero off1]
  simp only [View.readAt_eq_ld]
  rw [View.ld_unit_zero (S := S4096x256) off2, View.ld_unit_zero (S := S4096x256) off2, View.ld_unit_zero (S := S256x256) off2,
    View.ld_unit_zero (S := S256x256) off2, View.ld_unit_zero (S := S1x256) off2, View.ld_unit_zero (S := S256x1) off2,
    View.ld_unit_zero (S := S1x1) off2]

end Cert.Proof.KI

end
-- ==== Proof.LibMatmul.lean ====
/-
  A product of two matrices, read at an entry (a general lemma: nothing here depends on a program).

  Two layouts of a contraction over one axis, without batch axes. In the first the left factor is [A, K] and is
  contracted on its axis 1, the right factor is [K, B] and is contracted on its axis 0: entry (i, j) of the product
  is the sum over k of l[i, k] * r[k, j]. In the second the left factor is [K, A] and is contracted on its axis 0
  (the product with the transpose of the left factor), the right factor is again [K, B] contracted on its axis 0:
  entry (i, j) is the sum over k of l[k, i] * r[k, j]. Over the extended reals the host's product is exactly that
  sum, and the matrix unit's is the accumulator's entry plus that sum.
-/
import Idealize.ShloMosaic.Lib.ValueIdx
import Idealize.ShloMosaic.PureOps.Ideal.Laws

noncomputable section

namespace Cert.Lib.MatMul

open Idealize.ShloMosaic Idealize.ShloMosaic.ValueIdx

/-! ## Left factor [A, K] on its axis 1, right factor [K, B] on its axis 0 -/

section Plain

/-- The dimension numbers of [A, K] times [K, B]: the left factor contracted on axis 1, the right on axis 0, no
    batch axes. -/
abbrev mmD (A K B : Nat) (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

variable {A K B : Nat} (wf : DotDims.WF ⟨2, ![A, K]⟩ ⟨2, ![K, B]⟩ ⟨2, ![A, B]⟩ [1] [0] [0] [1] [] [])

/-- The left factor's row is the result's row. -/
theorem mm_lhs0 (j : (⟨2, ![A, B]⟩ : Shape).Idx) (q : (mmD A K B wf).contr.Idx) :
    ((mmD A K B wf).lhsIdx j q 0).val = (j 0).val := by
  unfold DotDims.lhsIdx
  rw [dif_neg (show ¬(0 : Fin 2) ∈ (mmD A K B wf).lhsBatch from List.not_mem_nil),
    dif_pos (show (0 : Fin 2) ∈ (mmD A K B wf).lhsNonContracting from List.mem_singleton.mpr rfl)]
  rfl

/-- The left factor's column is the contraction position. -/
theorem mm_lhs1 (j : (⟨2, ![A, B]⟩ : Shape).Idx) (q : (mmD A K B wf).contr.Idx) :
    ((mmD A K B wf).lhsIdx j q 1).val = (q ⟨0, Nat.one_pos⟩).val :=
  (mmD A K B wf).lhsIdx_val_of_single rfl j q

/-- The right factor's row is the contraction position. -/
theorem mm_rhs0 (j : (⟨2, ![A, B]⟩ : Shape).Idx) (q : (mmD A K B wf).contr.Idx) :
    ((mmD A K B wf).rhsIdx j q 0).val = (q ⟨0, Nat.one_pos⟩).val :=
  (mmD A K B wf).rhsIdx_val_of_single rfl j q

/-- The right factor's column is the result's column. -/
theorem mm_rhs1 (j : (⟨2, ![A, B]⟩ : Shape).Idx) (q : (mmD A K B wf).contr.Idx) :
    ((mmD A K B wf).rhsIdx j q 1).val = (j 1).val := by
  unfold DotDims.rhsIdx
  rw [dif_neg (show ¬(1 : Fin 2) ∈ (mmD A K B wf).rhsBatch from List.not_mem_nil),
    dif_pos (show (1 : Fin 2) ∈ (mmD A K B wf).rhsNonContracting from List.mem_singleton.mpr rfl)]
  rfl

/-- The contraction's sum, re-indexed by the one coordinate k: the sum over k of l[i, k] * r[k, j]. -/
theorem mm_sum {φ₁ φ₂ : FTy} (l : FVec Ideal ⟨2, ![A, K]⟩ φ₁) (r : FVec Ideal ⟨2, ![K, B]⟩ φ₂) (i : Fin A) (j : Fin B) :
    ∑ q : (mmD A K B wf).contr.Idx, l ((mmD A K B wf).lhsIdx (ix2 i j) q) * r ((mmD A K B wf).rhsIdx (ix2 i j) q)
      = ∑ k : Fin K, l (ix2 i k) * r (ix2 k j) := by
  rw [← Equiv.sum_comp (contrEquiv1 (mmD A K B wf) K rfl rfl).symm]
  refine Finset.sum_congr rfl fun k _ => ?_
  have hk := contrEquiv1_symm_val (mmD A K B wf) K rfl rfl k
  have el : (mmD A K B wf).lhsIdx (ix2 i j) ((contrEquiv1 (mmD A K B wf) K rfl rfl).symm k) = ix2 i k :=
    funext fun a => Fin.ext (by
      match a with
      | ⟨0, _⟩ => exact mm_lhs0 wf _ _
      | ⟨1, _⟩ => exact (mm_lhs1 wf _ _).trans hk)
  have er : (mmD A K B wf).rhsIdx (ix2 i j) ((contrEquiv1 (mmD A K B wf) K rfl rfl).symm k) = ix2 k j :=
    funext fun a => Fin.ext (by
      match a with
      | ⟨0, _⟩ => exact (mm_rhs0 wf _ _).trans hk
      | ⟨1, _⟩ => exact mm_rhs1 wf _ _)
  rw [el, er]

/-- The host's product at entry (i, j): the sum over k of l[i, k] * r[k, j]. -/
theorem dot_apply {φ₁ φ₂ : FTy} (prec : Option ContractPrecision) (l : FVec Ideal ⟨2, ![A, K]⟩ φ₁)
    (r : FVec Ideal ⟨2, ![K, B]⟩ φ₂) (i : Fin A) (j : Fin B) :
    Host.dotGeneral (F := Ideal) (mmD A K B wf) prec l r (ix2 i j) = ∑ k : Fin K, l (ix2 i k) * r (ix2 k j) := by
  simp only [Host.dotGeneral]
  rw [Ideal.dotGeneral_apply]
  exact mm_sum wf l r i j

/-- The matrix unit's product at entry (i, j): the accumulator there plus the sum over k of l[i, k] * r[k, j]. -/
theorem matmul_apply {φ₁ φ₂ : FTy} (prec : Option ContractPrecision) (l : FVec Ideal ⟨2, ![A, K]⟩ φ₁)
    (r : FVec Ideal ⟨2, ![K, B]⟩ φ₂) (acc : FVec Ideal ⟨2, ![A, B]⟩ .f32) (i : Fin A) (j : Fin B) :
    matmul (F := Ideal) (mmD A K B wf) prec l r acc (ix2 i j)
      = acc (ix2 i j) + ∑ k : Fin K, l (ix2 i k) * r (ix2 k j) := by
  simp only [matmul]
  rw [Ideal.matmul_apply]
  exact congrArg (acc (ix2 i j) + ·) (mm_sum wf l r i j)

end Plain

/-! ## Left factor [K, A] on its axis 0, right factor [K, B] on its axis 0 -/

section LeftTransposed

/-- The dimension numbers of the transpose of [K, A] times [K, B]: both factors contracted on axis 0, no batch
    axes. -/
abbrev mmTD (K A B : Nat) (wf : DotDims.WF ⟨2, ![K, A]⟩ ⟨2, ![K, B]⟩ ⟨2, ![A, B]⟩ [0] [0] [1] [1] [] []) :
    DotDims ⟨2, ![K, A]⟩ ⟨2, ![K, B]⟩ ⟨2, ![A, B]⟩ where
  lhsContracting := [0]
  rhsContracting := [0]
  lhsNonContracting := [1]
  rhsNonContracting := [1]
  lhsBatch := []
  rhsBatch := []
  wf := wf

variable {K A B : Nat} (wf : DotDims.WF ⟨2, ![K, A]⟩ ⟨2, ![K, B]⟩ ⟨2, ![A, B]⟩ [0] [0] [1] [1] [] [])

/-- The left factor's row is the contraction position. -/
theorem mmT_lhs0 (j : (⟨2, ![A, B]⟩ : Shape).Idx) (q : (mmTD K A B wf).contr.Idx) :
    ((mmTD K A B wf).lhsIdx j q 0).val = (q ⟨0, Nat.one_pos⟩).val :=
  (mmTD K A B wf).lhsIdx_val_of_single rfl j q

/-- The left factor's column is the result's row. -/
theorem mmT_lhs1 (j : (⟨2, ![A, B]⟩ : Shape).Idx) (q : (mmTD K A B wf).contr.Idx) :
    ((mmTD K A B wf).lhsIdx j q 1).val = (j 0).val := by
  unfold DotDims.lhsIdx
  rw [dif_neg (show ¬(1 : Fin 2) ∈ (mmTD K A B wf).lhsBatch from List.not_mem_nil),
    dif_pos (show (1 : Fin 2) ∈ (mmTD K A B wf).lhsNonContracting from List.mem_singleton.mpr rfl)]
  rfl

/-- The right factor's row is the contraction position. -/
theorem mmT_rhs0 (j : (⟨2, ![A, B]⟩ : Shape).Idx) (q : (mmTD K A B wf).contr.Idx) :
    ((mmTD K A B wf).rhsIdx j q 0).val = (q ⟨0, Nat.one_pos⟩).val :=
  (mmTD K A B wf).rhsIdx_val_of_single rfl j q

/-- The right factor's column is the result's column. -/
theorem mmT_rhs1 (j : (⟨2, ![A, B]⟩ : Shape).Idx) (q : (mmTD K A B wf).contr.Idx) :
    ((mmTD K A B wf).rhsIdx j q 1).val = (j 1).val := by
  unfold DotDims.rhsIdx
  rw [dif_neg (show ¬(1 : Fin 2) ∈ (mmTD K A B wf).rhsBatch from List.not_mem_nil),
    dif_pos (show (1 : Fin 2) ∈ (mmTD K A B wf).rhsNonContracting from List.mem_singleton.mpr rfl)]
  rfl

/-- The contraction's sum, re-indexed by the one coordinate k: the sum over k of l[k, i] * r[k, j]. -/
theorem mmT_sum {φ₁ φ₂ : FTy} (l : FVec Ideal ⟨2, ![K, A]⟩ φ₁) (r : FVec Ideal ⟨2, ![K, B]⟩ φ₂) (i : Fin A) (j : Fin B) :
    ∑ q : (mmTD K A B wf).contr.Idx, l ((mmTD K A B wf).lhsIdx (ix2 i j) q) * r ((mmTD K A B wf).rhsIdx (ix2 i j) q)
      = ∑ k : Fin K, l (ix2 k i) * r (ix2 k j) := by
  rw [← Equiv.sum_comp (contrEquiv1 (mmTD K A B wf) K rfl rfl).symm]
  refine Finset.sum_congr rfl fun k _ => ?_
  have hk := contrEquiv1_symm_val (mmTD K A B wf) K rfl rfl k
  have el : (mmTD K A B wf).lhsIdx (ix2 i j) ((contrEquiv1 (mmTD K A B wf) K rfl rfl).symm k) = ix2 k i :=
    funext fun a => Fin.ext (by
      match a with
      | ⟨0, _⟩ => exact (mmT_lhs0 wf _ _).trans hk
      | ⟨1, _⟩ => exact mmT_lhs1 wf _ _)
  have er : (mmTD K A B wf).rhsIdx (ix2 i j) ((contrEquiv1 (mmTD K A B wf) K rfl rfl).symm k) = ix2 k j :=
    funext fun a => Fin.ext (by
      match a with
      | ⟨0, _⟩ => exact (mmT_rhs0 wf _ _).trans hk
      | ⟨1, _⟩ => exact mmT_rhs1 wf _ _)
  rw [el, er]

/-- The host's product at entry (i, j): the sum over k of l[k, i] * r[k, j]. -/
theorem dotT_apply {φ₁ φ₂ : FTy} (prec : Option ContractPrecision) (l : FVec Ideal ⟨2, ![K, A]⟩ φ₁)
    (r : FVec Ideal ⟨2, ![K, B]⟩ φ₂) (i : Fin A) (j : Fin B) :
    Host.dotGeneral (F := Ideal) (mmTD K A B wf) prec l r (ix2 i j) = ∑ k : Fin K, l (ix2 k i) * r (ix2 k j) := by
  simp only [Host.dotGeneral]
  rw [Ideal.dotGeneral_apply]
  exact mmT_sum wf l r i j

/-- The matrix unit's product at entry (i, j): the accumulator there plus the sum over k of l[k, i] * r[k, j]. -/
theorem matmulT_apply {φ₁ φ₂ : FTy} (prec : Option ContractPrecision) (l : FVec Ideal ⟨2, ![K, A]⟩ φ₁)
    (r : FVec Ideal ⟨2, ![K, B]⟩ φ₂) (acc : FVec Ideal ⟨2, ![A, B]⟩ .f32) (i : Fin A) (j : Fin B) :
    matmul (F := Ideal) (mmTD K A B wf) prec l r acc (ix2 i j)
      = acc (ix2 i j) + ∑ k : Fin K, l (ix2 k i) * r (ix2 k j) := by
  simp only [matmul]
  rw [Ideal.matmul_apply]
  exact congrArg (acc (ix2 i j) + ·) (mmT_sum wf l r i j)

end LeftTransposed

end Cert.Lib.MatMul

end
-- ==== Proof.LibRowMlp.lean ====
/-
  A two-layer perceptron read at one entry (general lemmas: nothing here depends on a program).

  On a matrix x of R rows, relu (x · w1 + b1) · w2 + b2 at entry (r, j) is
    (sum over h of max ((sum over k of x[r, k] * w1[k, h]) + b1[h], 0) * w2[h, j]) + b2[j]:
  it depends on row r of x only. A kernel and a host program spell each layer differently. The kernel multiplies on
  the matrix unit into an accumulator of zeros (after a change of float format, which is the identity on the
  extended reals), adds the bias as a one-row matrix broadcast down the rows, and clamps against a splat of the
  scalar zero. The host multiplies by a dot product, adds the bias as a vector broadcast to one row and then down
  the rows, and clamps against a broadcast of the constant zero. Both are the same sum at every entry; only
  0 + s = s is used of the arithmetic, which holds at the infinities too.
-/
import Idealize.ShloMosaic.Lib.ValueIdx
import Idealize.ShloMosaic.Lib.ValueLayout
import Idealize.ShloMosaic.Lib.IdealHost
import Idealize.ShloMosaic.Lib.StableHlo.Predicate
import Idealize.ShloMosaic.Lib.Pipeline.Value
import Idealize.ShloMosaic.PureOps.Ideal.Laws
import proofs.«140835_j34230889349178_1_alg».proof.Proof.LibMatmul

noncomputable section

namespace Cert.Lib.RowMlp

open Idealize.ShloMosaic Idealize.ShloMosaic.ValueIdx Cert.Lib.MatMul

/-- One layer at an entry: the row's product with column h of the weights, plus the bias at h. -/
def layerAt {K H : Nat} (x : Fin K → EReal) (w : Fin K → Fin H → EReal) (b : Fin H → EReal) (h : Fin H) : EReal :=
  (∑ k : Fin K, x k * w k h) + b h

/-- The perceptron at an entry, from one row of its input. -/
def mlpAt {K H B : Nat} (x : Fin K → EReal) (w1 : Fin K → Fin H → EReal) (b1 : Fin H → EReal)
    (w2 : Fin H → Fin B → EReal) (b2 : Fin B → EReal) (j : Fin B) : EReal :=
  layerAt (fun h => max (layerAt x w1 b1 h) 0) w2 b2 j

/-- The two index spellings of an entry of a matrix are one function. -/
theorem ij_eq_ix2 {n m : Nat} (p : Fin n) (q : Fin m) : StableHlo.Predicate.ij p q = ix2 p q := by
  funext a; match a with | ⟨0, _⟩ => rfl | ⟨1, _⟩ => rfl

section Kernel

variable {R K H : Nat} (wf : DotDims.WF ⟨2, ![R, K]⟩ ⟨2, ![K, H]⟩ ⟨2, ![R, H]⟩ [1] [0] [0] [1] [] [])

/-- A kernel's layer at an entry: the matrix unit's product into zeros, plus a one-row bias broadcast down the rows. -/
theorem kernLayer_apply {φ₁ φ₂ : FTy} (x : FVec Ideal ⟨2, ![R, K]⟩ φ₁) (w : FVec Ideal ⟨2, ![K, H]⟩ φ₂)
    (b : FVec Ideal ⟨2, ![1, H]⟩ .f32) (hsc : (⟨2, ![1, H]⟩ : Shape).ShapeCasts ⟨2, ![1, H]⟩)
    (hbt : (⟨2, ![1, H]⟩ : Shape).Broadcasts ⟨2, ![R, H]⟩) (p : Fin R) (h : Fin H) :
    addf (matmul (mmD R K H wf) none x w (constant ⟨2, ![R, H]⟩ .f32 0x00000000#32))
        (broadcastTo ⟨2, ![R, H]⟩ (shapeCast ⟨2, ![1, H]⟩ b hsc) hbt) (ix2 p h)
      = layerAt (fun k => x (ix2 p k)) (fun k h => w (ix2 k h)) (fun h => b (ix2 (0 : Fin 1) h)) h := by
  rw [addf_apply, matmul_apply wf none x w _ p h, constant_apply, Ideal.ofBits_zero_f32, zero_add, shapeCast_self,
    broadcastTo_1b_ab_apply]
  rfl

/-- A kernel's clamp at zero, at an entry. -/
theorem kernRelu_apply {s : Shape} (v : FVec Ideal s .f32) (i : s.Idx) :
    maximumf v (broadcast s (Scalar.ofBits (F := Ideal) .f32 0x00000000#32)) i = max (v i) 0 := by
  rw [maximumf_apply, broadcast_apply]
  exact congrArg (max (v i)) Ideal.ofBits_zero_f32

end Kernel

section Host

variable {R K H : Nat} (wf : DotDims.WF ⟨2, ![R, K]⟩ ⟨2, ![K, H]⟩ ⟨2, ![R, H]⟩ [1] [0] [0] [1] [] [])

/-- A host's layer at an entry: the dot product, plus a bias vector broadcast to one row and down the rows. -/
theorem hostLayer_apply {φ₁ φ₂ : FTy} (x : FVec Ideal ⟨2, ![R, K]⟩ φ₁) (w : FVec Ideal ⟨2, ![K, H]⟩ φ₂)
    (b : FVec Ideal ⟨1, ![H]⟩ .f32) (h₁ : (⟨1, ![H]⟩ : Shape).BroadcastsInDim ⟨2, ![1, H]⟩ ![1])
    (h₂ : (⟨2, ![1, H]⟩ : Shape).BroadcastsInDim ⟨2, ![R, H]⟩ ![0, 1]) (r : Fin R) (h : Fin H) :
    addf (Host.dotGeneral (mmD R K H wf) none x w)
        (broadcastInDim ⟨2, ![R, H]⟩ ![0, 1] h₂ (broadcastInDim ⟨2, ![1, H]⟩ ![1] h₁ b)) (ix2 r h)
      = layerAt (fun k => x (ix2 r k)) (fun k h => w (ix2 k h)) (fun h => b (ix1 h)) h := by
  rw [addf_apply, dot_apply wf none x w r h, ← ij_eq_ix2 r h, StableHlo.Predicate.bcast_cols h₁ h₂ b r h]
  have e : (Shape.Idx.ofFin h : (⟨1, ![H]⟩ : Shape).Idx) = ix1 h := by
    funext d; match d with | ⟨0, _⟩ => rfl
  rw [e]
  rfl

/-- A host's clamp at zero, at an entry. -/
theorem hostRelu_apply {s : Shape} (v : FVec Ideal s .f32) (h0 : (⟨0, ![]⟩ : Shape).BroadcastsInDim s ![]) (i : s.Idx) :
    maximumf v (broadcastInDim s ![] h0 (constant (F := Ideal) ⟨0, ![]⟩ .f32 0x00000000#32)) i = max (v i) 0 := by
  rw [maximumf_apply, broadcastInDim_scalar_apply, constant_apply]
  exact congrArg (max (v i)) Ideal.ofBits_zero_f32

end Host

end Cert.Lib.RowMlp

end
-- ==== Proof.Spec.lean ====
/-
  What one edge's score is, as a function of two rows (no program is named here).

  The network scores an edge from a gene row g and a disease row d, 256 entries each: the hidden unit h is
  relu (sum_k g[k] wa[k,h] + sum_k d[k] wb[k,h] + b1[h]), and the score is sum_h hidden[h] w2[h] + b2.
  A program that first joins the two rows into one row of 512 entries and applies one weight matrix of 512 rows
  computes the same hidden unit: a sum over 512 terms is the sum over its first 256 and its last 256 terms, in any
  commutative monoid, so at the infinities of the extended reals too.
-/
import Mathlib.Algebra.BigOperators.Fin
import Mathlib.Data.EReal.Basic
import Idealize.ShloMosaic.Lib.ValueIdx

noncomputable section

namespace Cert.EdgeScore

open Idealize.ShloMosaic Idealize.ShloMosaic.ValueIdx

/-- The score of one edge from its gene row `g` and its disease row `d`: the weights `wa`, `wb` of the first layer
    (input coordinate first, hidden unit second), its bias `b1`, the second layer's weights `w2` and bias `b2`. -/
def rowScore (g d : Fin 256 → EReal) (wa wb : Fin 256 → Fin 256 → EReal) (b1 : Fin 256 → EReal) (w2 : Fin 256 → EReal)
    (b2 : EReal) : EReal :=
  (∑ h : Fin 256, max (((∑ k : Fin 256, g k * wa k h) + ∑ k : Fin 256, d k * wb k h) + b1 h) 0 * w2 h) + b2

/-- A sum over the 512 entries of a joined row splits into the sums over its two halves. -/
theorem sum_joined (f : Fin (256 + 256) → EReal) :
    ∑ k : Fin (256 + 256), f k = (∑ k : Fin 256, f (Fin.castAdd 256 k)) + ∑ k : Fin 256, f (Fin.natAdd 256 k) :=
  Fin.sum_univ_add f

/-- Every edge's score from the two arrays of gathered rows and the network's parameters as the programs take them: the
    first layer's weights [256, 512] (hidden unit first; columns 0 … 255 meet the gene row, 256 … 511 the disease row),
    its bias [256], the second layer's weights [1, 256] and bias [1]. -/
def edgeScores (xg xd : (⟨2, ![500000, 256]⟩ : Shape).Idx → EReal) (W1 : (⟨2, ![256, 512]⟩ : Shape).Idx → EReal)
    (b1 : (⟨1, ![256]⟩ : Shape).Idx → EReal) (W2 : (⟨2, ![1, 256]⟩ : Shape).Idx → EReal) (b2 : (⟨1, ![1]⟩ : Shape).Idx → EReal) :
    (⟨1, ![500000]⟩ : Shape).Idx → EReal := fun i =>
  rowScore (fun k => xg (ix2 (i 0) k)) (fun k => xd (ix2 (i 0) k)) (fun k h => W1 (ix2 h (Fin.castAdd 256 k)))
    (fun k h => W1 (ix2 h (Fin.natAdd 256 k))) (fun h => b1 (ix1 h)) (fun h => W2 (ix2 (0 : Fin 1) h)) (b2 (ix1 (0 : Fin 1)))

/-- The scores read at entry r. -/
theorem edgeScores_apply (xg xd : (⟨2, ![500000, 256]⟩ : Shape).Idx → EReal) (W1 : (⟨2, ![256, 512]⟩ : Shape).Idx → EReal)
    (b1 : (⟨1, ![256]⟩ : Shape).Idx → EReal) (W2 : (⟨2, ![1, 256]⟩ : Shape).Idx → EReal) (b2 : (⟨1, ![1]⟩ : Shape).Idx → EReal)
    (r : Fin 500000) :
    edgeScores xg xd W1 b1 W2 b2 (ix1 r)
      = rowScore (fun k => xg (ix2 r k)) (fun k => xd (ix2 r k)) (fun k h => W1 (ix2 h (Fin.castAdd 256 k)))
          (fun k h => W1 (ix2 h (Fin.natAdd 256 k))) (fun h => b1 (ix1 h)) (fun h => W2 (ix2 (0 : Fin 1) h)) (b2 (ix1 (0 : Fin 1))) := rfl

end Cert.EdgeScore

end
-- ==== Proof.KernelIdeal.Payload.lean ====
/-
  The body's function read at one entry, at the ideal values.

  Entry r of the 4096 results is the score of the edge whose rows are row r of the two blocks: the matrix products
  into accumulators of zeros are sums over the contracted index, the changes of float format are the identity, the
  first bias is one row broadcast down the rows, the clamp is against a splat of zero, the second bias one entry
  broadcast down the column, and the closing cast reads column entry (r, 0). In particular entry r depends on row r
  of each block only.
-/
import proofs.«140835_j34230889349178_1_alg».proof.Proof.Gen.KernelIdeal.Skeleton
import proofs.«140835_j34230889349178_1_alg».proof.Proof.LibRowMlp
import proofs.«140835_j34230889349178_1_alg».proof.Proof.Spec
import Idealize.ShloMosaic.Lib.Pipeline.Value
import Idealize.ShloMosaic.Lib.ValueLayout

noncomputable section

namespace Cert.Proof.KI

open Cert.KernelIdeal Cert.KernelIdeal.Gen
open Idealize.ShloMosaic Idealize.ShloMosaic.ValueIdx
open Cert.Lib.MatMul Cert.Lib.RowMlp Cert.EdgeScore

/-- The printed dimension records are the rows-by-columns contraction. -/
theorem dot1_eq : dot_S4096x256_S256x256_S4096x256_1_0_0_1_n_n = mmD 4096 256 256 dot_S4096x256_S256x256_S4096x256_1_0_0_1_n_n_wf := rfl
theorem dot2_eq : dot_S4096x256_S256x1_S4096x1_1_0_0_1_n_n = mmD 4096 256 1 dot_S4096x256_S256x1_S4096x1_1_0_0_1_n_n_wf := rfl

/-- Entry r of the body's result is the score of the edge made of row r of each block. -/
theorem payload_apply (x0 x1 : FVec Ideal S4096x256 .f32) (x2 x3 : FVec Ideal S256x256 .f32) (x4 : FVec Ideal S1x256 .f32)
    (x5 : FVec Ideal S256x1 .f32) (x6 : FVec Ideal S1x1 .f32) (r : Fin 4096) :
    k0_pay1 (F := Ideal) x0 x1 x2 x3 x4 x5 x6 (ix1 r)
      = rowScore (fun k => x0 (ix2 r k)) (fun k => x1 (ix2 r k)) (fun k h => x2 (ix2 k h)) (fun k h => x3 (ix2 k h))
          (fun h => x4 (ix2 (0 : Fin 1) h)) (fun h => x5 (ix2 h (0 : Fin 1))) (x6 (ix2 (0 : Fin 1) (0 : Fin 1))) := by
  unfold k0_pay1
  rw [shapeCast_apply _ shapeCasts_S4096x1_S4096 (ix1 r) (ix2 r (0 : Fin 1))
    (by rw [Shape.rowMajor_val_two, Shape.rowMajor_val_one]; show r.val * 1 + 0 = r.val; omega)]
  rw [dot2_eq, dot1_eq]
  rw [kernLayer_apply dot_S4096x256_S256x1_S4096x1_1_0_0_1_n_n_wf _ _ x6 shapeCasts_S1x1_S1x1 broadcasts_S1x1_S4096x1 r (0 : Fin 1)]
  unfold layerAt rowScore
  refine congrArg (· + x6 (ix2 (0 : Fin 1) (0 : Fin 1))) (Finset.sum_congr rfl fun h _ => ?_)
  dsimp only
  simp only [truncf_apply, shapeCast_self, maximumf_apply, broadcast_apply, addf_apply, Cert.Lib.MatMul.matmul_apply,
    constant_apply, Ideal.ofBits_def, Ideal.ofBits_zero_f32, zero_add, broadcastTo_1b_ab_apply]

/-- So entry r of the result depends on row r of the two blocks only. -/
theorem payload_congr_row (x0 x0' x1 x1' : FVec Ideal S4096x256 .f32) (x2 x3 : FVec Ideal S256x256 .f32) (x4 : FVec Ideal S1x256 .f32)
    (x5 : FVec Ideal S256x1 .f32) (x6 : FVec Ideal S1x1 .f32) (r : Fin 4096)
    (h0 : ∀ k : Fin 256, x0 (ix2 r k) = x0' (ix2 r k)) (h1 : ∀ k : Fin 256, x1 (ix2 r k) = x1' (ix2 r k)) :
    k0_pay1 (F := Ideal) x0 x1 x2 x3 x4 x5 x6 (ix1 r) = k0_pay1 (F := Ideal) x0' x1' x2 x3 x4 x5 x6 (ix1 r) := by
  rw [payload_apply, payload_apply]
  simp only [h0, h1]

end Cert.Proof.KI

end
-- ==== Proof.KernelIdeal.Run.lean ====
/-
  The idealized program's run: the proof data of its one pipeline, the body at every grid point, and the run itself.

  The grid has 123 points; point t stages rows 4096 t … of the two gathered row arrays and writes entries 4096 t … of
  the result. The last block overhangs the arrays: only its first 288 rows are inside, the fetch leaves the rest of
  the staging buffer at contents nothing names, and the write-back writes the first 288 entries only. So the proof
  data say what the two row buffers hold ON THE ROWS INSIDE THE ARRAY (the block, filled out with a word of our
  choosing), and what the result's buffer holds on those entries: the body's function of the buffers. That is well
  defined because, at the ideal values, entry r of the body's result reads row r of each block and nothing else.
-/
import proofs.«140835_j34230889349178_1_alg».proof.Proof.KernelIdeal.Body
import proofs.«140835_j34230889349178_1_alg».proof.Proof.KernelIdeal.Payload

set_option maxRecDepth 16384

noncomputable section

namespace Cert.Proof.KI

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf ΦA)

local notation "𝕄" => MT nD τ sig Unit (Elt Ideal) ℕ (UR sig nD τ) ℕ

variable (m : (ℓ : Loc nD τ sig) → Buf (Elt Ideal) ℓ) (ρ : Dev nD → PrngReg)

/-! ## The cuts -/

/-- The row blocks span the 256 columns: the transfers cut them on the row axis only, -/
theorem xsize0_cols (i : grid0.Coords) : win0_0.xsize i 1 = 256 := rfl
/-- the disease rows' blocks are cut as the gene rows' are, -/
theorem xsize1_eq (i : grid0.Coords) (a : Fin 2) : win0_1.xsize i a = win0_0.xsize i a := rfl
/-- and the result's blocks have as many entries inside the array as the row blocks have rows. -/
theorem xsize7_eq (i : grid0.Coords) : win0_7.xsize i 0 = win0_0.xsize i 0 := rfl

/-! ## The proof data -/

/-- A row buffer after the fetch at point `t`: the block's rows inside the array, filled out with the zero word. -/
def gBuf (c : Dev nD) (t : Fin cfg0.N) : S4096x256.Idx → Elt Ideal .f32 :=
  win0_0.fill (grid0.coords t) (fun _ => Scalar.ofBits (F := Ideal) .f32 0#32) (iblk m c 0 t)
def dBuf (c : Dev nD) (t : Fin cfg0.N) : S4096x256.Idx → Elt Ideal .f32 :=
  win0_1.fill (grid0.coords t) (fun _ => Scalar.ofBits (F := Ideal) .f32 0#32) (iblk m c 1 t)

/-- The result's buffer after the body at point `t`: the body's function of the seven buffers. -/
def outBuf (c : Dev nD) (t : Fin cfg0.N) : S4096.Idx → Elt Ideal .f32 :=
  k0_pay1 (F := Ideal) (gBuf m c t) (dBuf m c t) (iblk m c 2 t) (iblk m c 3 t) (iblk m c 4 t) (iblk m c 5 t) (iblk m c 6 t)

/-- The proof data of the one pipeline on core `c`: the arrays as the region finds them; after the body each input's
    buffer at its block (the two row buffers filled out) and the result's at `outBuf`; the scoped rest and the
    generator register as invariant; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => gBuf m c t
    | ⟨1, _⟩ => dBuf m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBuf m c t
  Φ _ := ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = gBuf m c t := by dsimp only [dats]
theorem after0_1 (c : Dev nD) (t : Fin cfg0.N) : (dats m 0 c).after 1 t = dBuf m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outBuf m c t := by dsimp only [dats]

/-- The row windows are fetched at every point: the body finds the block's rows inside the array, and `d` elsewhere. -/
theorem before0_0 (c : Dev nD) (t : Fin cfg0.N) (d) :
    (dats m 0 c).before 0 t d = win0_0.fill (grid0.coords t) d (iblk m c 0 t) := by
  unfold Dat.before; rw [if_pos (fetch0_0 t)]; unfold Dat.fetched Dat.blockOf iblk; rw [A_eq]
theorem before0_1 (c : Dev nD) (t : Fin cfg0.N) (d) :
    (dats m 0 c).before 1 t d = win0_1.fill (grid0.coords t) d (iblk m c 1 t) := by
  unfold Dat.before; rw [if_pos (fetch0_1 t)]; unfold Dat.fetched Dat.blockOf iblk; rw [A_eq]
/-- The weights and biases are fetched once and found at every point. -/
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body at a point -/

/-- Cut back to the rows inside the array, a filled-out row buffer is the block. -/
theorem cut_gBuf (c : Dev nD) (t : Fin cfg0.N) : win0_0.cut (grid0.coords t) (gBuf m c t) = iblk m c 0 t :=
  win0_0.cut_fill _ _ _
theorem cut_dBuf (c : Dev nD) (t : Fin cfg0.N) : win0_1.cut (grid0.coords t) (dBuf m c t) = iblk m c 1 t :=
  win0_1.cut_fill _ _ _

/-- On a row inside the array a filled-out buffer holds the block's row, whatever it was filled out with. -/
theorem fill0_row (i : grid0.Coords) (d d' : S4096x256.Idx → Elt Ideal .f32) (g : (win0_0.xblock i).Idx → Elt Ideal .f32)
    (r : Fin 4096) (hr : r.val < win0_0.xsize i 0) (k : Fin 256) :
    win0_0.fill i d g (ix2 r k) = win0_0.fill i d' g (ix2 r k) := by
  have hm : win0_0.moved i (ix2 r k) = true := (win0_0.moved_iff i _).mpr fun a => by
    match a with
    | ⟨0, _⟩ => exact hr
    | ⟨1, _⟩ => exact k.isLt
  unfold Window.fill; rw [dif_pos hm, dif_pos hm]
theorem fill1_row (i : grid0.Coords) (d d' : S4096x256.Idx → Elt Ideal .f32) (g : (win0_1.xblock i).Idx → Elt Ideal .f32)
    (r : Fin 4096) (hr : r.val < win0_0.xsize i 0) (k : Fin 256) :
    win0_1.fill i d g (ix2 r k) = win0_1.fill i d' g (ix2 r k) := by
  have hm : win0_1.moved i (ix2 r k) = true := (win0_1.moved_iff i _).mpr fun a => by
    match a with
    | ⟨0, _⟩ => exact hr
    | ⟨1, _⟩ => exact k.isLt
  unfold Window.fill; rw [dif_pos hm, dif_pos hm]

/-- The entries of the body's result that the write-back moves do not depend on what the row buffers hold past the
    arrays' end: entry r reads row r of each, and r is a row inside the array. -/
theorem cut_out_eq (c : Dev nD) (t : Fin cfg0.N) (d0 d1 : S4096x256.Idx → Elt Ideal .f32) :
    win0_7.cut (grid0.coords t)
        (k0_pay1 (F := Ideal) (win0_0.fill (grid0.coords t) d0 (iblk m c 0 t)) (win0_1.fill (grid0.coords t) d1 (iblk m c 1 t))
          (iblk m c 2 t) (iblk m c 3 t) (iblk m c 4 t) (iblk m c 5 t) (iblk m c 6 t))
      = win0_7.cut (grid0.coords t) (outBuf m c t) := by
  funext j
  have hj : (j 0).val < win0_0.xsize (grid0.coords t) 0 := (j 0).isLt
  have e : win0_7.xinj (grid0.coords t) j = ix1 (⟨(j 0).val, Nat.lt_of_lt_of_le (j 0).isLt (win0_7.xsize_le (grid0.coords t) 0)⟩ : Fin 4096) := by
    funext a; match a with | ⟨0, _⟩ => rfl
  show k0_pay1 (F := Ideal) _ _ _ _ _ _ _ (win0_7.xinj (grid0.coords t) j) = outBuf m c t (win0_7.xinj (grid0.coords t) j)
  rw [e]
  unfold outBuf gBuf dBuf
  exact payload_congr_row _ _ _ _ _ _ _ _ _ _ (fun k => fill0_row _ _ _ _ _ hj k) (fun k => fill1_row _ _ _ _ _ hj k)

/-- What the body is called with at point `t`: the invariant, the core's dues, and each window's current buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What it returns: the three windows whose blocks may overhang are stated on the part their transfers move. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ (∃ d, owns (c : Thread nD τ) (st0_1 t) fullShare (win0_1.fill (grid0.coords t) d (win0_1.cut (grid0.coords t) ((dats m 0 c).after 1 t))))
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ d, owns (c : Thread nD τ) (st0_7 t) fullShare (win0_7.fill (grid0.coords t) d (win0_7.cut (grid0.coords t) ((dats m 0 c).after 7 t)))))

/-- The body at any point: the row buffers hold their blocks filled out with whatever the fetch left, the other
    inputs their blocks; the body leaves them so and the result's buffer at its function of them, which on the
    entries the write-back moves is `outBuf`'s. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, cut_gBuf, cut_dBuf]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (win0_0.fill (grid0.coords t) d0 (iblk m c 0 t)) (win0_1.fill (grid0.coords t) d1 (iblk m c 1 t))
    (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexists d0; iexact H0
  isplitl [H1]; · iexists d1; iexact H1
  isplitl [H2]; · iexact H2
  isplitl [H3]; · iexact H3
  isplitl [H4]; · iexact H4
  isplitl [H5]; · iexact H5
  isplitl [H6]; · iexact H6
  iexists _
  rw [win0_7.fill_congr_cut (grid0.coords t) (cut_out_eq m c t d0 d1)]
  iexact H7

/-- The library's body obligation, at every point (the form for windows whose blocks may overhang). -/
theorem body_obligation (c : Dev nD) : BodyObligationLoose (dats m 0 c) (defs₀ (F := Ideal)) Variants.none () Set.univ := fun t => by
  rw [bigSep_W0, bigSep_W0]
  exact sound_body m c t

/-! ## The run and the frame -/

set_option backward.isDefEq.respectTransparency.types false in
/-- From any memory with zero counters every weakly fair execution of the idealized program ends, every array of the
    pipeline at what the library computes from the proof data and every other unscoped buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The idealized program runs to the end and leaves its seven arguments as they were. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Proof.KI

end
-- ==== Proof.KernelIdeal.Value.lean ====
/-
  What the idealized program leaves in its result array: the score of every edge.

  Point t's block of the result is entries 4096 t … (the last block cut at the array's end: 288 entries), and entry r
  of what the body leaves there is the score of the edge made of row 4096 t + r of the two gathered row arrays, with
  the weights and biases the region finds. The 123 blocks cover the 500000 entries, so after the run the result array
  is, entry by entry, the edges' scores.
-/
import proofs.«140835_j34230889349178_1_alg».proof.Proof.KernelIdeal.Run

set_option maxRecDepth 16384

noncomputable section

namespace Cert.Proof.KI

open Cert.KernelIdeal Cert.KernelIdeal.Gen
open Idealize.ShloMosaic Idealize.ShloMosaic.ValueIdx
open Idealize.ShloMosaic.TcCoe
open Idealize.SL Idealize.SL.Sem
open Idealize.ShloMosaic.Pipeline (Dat Cfg Window)
open Cert.EdgeScore

variable (m : (ℓ : Loc nD τ sig) → Buf (Elt Ideal) ℓ) (ρ : Dev nD → PrngReg)

/-! ## Where the blocks sit -/

/-- The row windows' block at point t is block t of the rows, all the columns; the result's is block t. -/
theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = t.val ∧ win0_1.index t (1 : Fin 2) = 0 :=
  (by decide +kernel : ∀ t : Fin grid0.N, _)
theorem index7 : ∀ t : Fin cfg0.N, win0_7.index t (0 : Fin 1) = t.val :=
  (by decide +kernel : ∀ t : Fin grid0.N, _)
/-- Every block has 4096 rows inside the array but the last, which has 288. -/
theorem rows_inside : ∀ t : Fin cfg0.N, win0_0.xsize (grid0.coords t) (0 : Fin 2) = if t.val = 122 then 288 else 4096 :=
  (by decide +kernel : ∀ t : Fin grid0.N, _)

/-! ## The blocks read off the arrays the region finds -/

/-- Row r, column k of the gene rows' block at point t is entry (4096 t + r, k) of the gathered gene rows. -/
theorem iblk0_apply (c : Dev nD) (t : Fin cfg0.N) (y : (win0_0.xblock (grid0.coords t)).Idx) (i : S500000x256.Idx)
    (h0 : (i 0).val = t.val * 4096 + (y 0).val) (h1 : (i 1).val = (y 1).val) :
    iblk m c 0 t y = V m c main_v10 i := by
  show V m c main_v10 (((cfg0.win 0).blk t).view.emb y) = V m c main_v10 i
  refine congrArg _ (funext fun a => Fin.ext ?_)
  match a with
  | ⟨0, _⟩ => show win0_0.index t (0 : Fin 2) * 4096 + 1 * (y 0).val = (i 0).val; rw [(index0 t).1, h0]; omega
  | ⟨1, _⟩ => show win0_0.index t (1 : Fin 2) * 256 + 1 * (y 1).val = (i 1).val; rw [(index0 t).2, h1]; omega
theorem iblk1_apply (c : Dev nD) (t : Fin cfg0.N) (y : (win0_1.xblock (grid0.coords t)).Idx) (i : S500000x256.Idx)
    (h0 : (i 0).val = t.val * 4096 + (y 0).val) (h1 : (i 1).val = (y 1).val) :
    iblk m c 1 t y = V m c main_v17 i := by
  show V m c main_v17 (((cfg0.win 1).blk t).view.emb y) = V m c main_v17 i
  refine congrArg _ (funext fun a => Fin.ext ?_)
  match a with
  | ⟨0, _⟩ => show win0_1.index t (0 : Fin 2) * 4096 + 1 * (y 0).val = (i 0).val; rw [(index1 t).1, h0]; omega
  | ⟨1, _⟩ => show win0_1.index t (1 : Fin 2) * 256 + 1 * (y 1).val = (i 1).val; rw [(index1 t).2, h1]; omega

/-- On a row inside the array the filled-out row buffers hold the gathered rows. -/
theorem gBuf_row (c : Dev nD) (t : Fin cfg0.N) (r : Fin 4096) (hr : r.val < win0_0.xsize (grid0.coords t) 0) (k : Fin 256)
    (i : S500000x256.Idx) (h0 : (i 0).val = t.val * 4096 + r.val) (h1 : (i 1).val = k.val) :
    gBuf m c t (ix2 r k) = V m c main_v10 i := by
  have hm : win0_0.moved (grid0.coords t) (ix2 r k) = true := (win0_0.moved_iff _ _).mpr fun a => by
    match a with
    | ⟨0, _⟩ => exact hr
    | ⟨1, _⟩ => exact k.isLt
  unfold gBuf Window.fill; rw [dif_pos hm]
  exact iblk0_apply m c t _ i h0 h1
theorem dBuf_row (c : Dev nD) (t : Fin cfg0.N) (r : Fin 4096) (hr : r.val < win0_0.xsize (grid0.coords t) 0) (k : Fin 256)
    (i : S500000x256.Idx) (h0 : (i 0).val = t.val * 4096 + r.val) (h1 : (i 1).val = k.val) :
    dBuf m c t (ix2 r k) = V m c main_v17 i := by
  have hm : win0_1.moved (grid0.coords t) (ix2 r k) = true := (win0_1.moved_iff _ _).mpr fun a => by
    match a with
    | ⟨0, _⟩ => exact hr
    | ⟨1, _⟩ => exact k.isLt
  unfold dBuf Window.fill; rw [dif_pos hm]
  exact iblk1_apply m c t _ i h0 h1

/-- The weights' and biases' windows stage their whole arrays at every point. -/
theorem iblk2_eq (c : Dev nD) (t : Fin cfg0.N) : iblk m c 2 t = V m c main_v19 :=
  Memref.read_access_unit_zero (Elt Ideal) main_v19 (funext fun a => by fin_cases a <;> rfl) _ _
theorem iblk3_eq (c : Dev nD) (t : Fin cfg0.N) : iblk m c 3 t = V m c main_v21 :=
  Memref.read_access_unit_zero (Elt Ideal) main_v21 (funext fun a => by fin_cases a <;> rfl) _ _
theorem iblk4_eq (c : Dev nD) (t : Fin cfg0.N) : iblk m c 4 t = V m c main_v23 :=
  Memref.read_access_unit_zero (Elt Ideal) main_v23 (funext fun a => by fin_cases a <;> rfl) _ _
theorem iblk5_eq (c : Dev nD) (t : Fin cfg0.N) : iblk m c 5 t = V m c main_v22 :=
  Memref.read_access_unit_zero (Elt Ideal) main_v22 (funext fun a => by fin_cases a <;> rfl) _ _
theorem iblk6_eq (c : Dev nD) (t : Fin cfg0.N) : iblk m c 6 t = V m c main_v24 :=
  Memref.read_access_unit_zero (Elt Ideal) main_v24 (funext fun a => by fin_cases a <;> rfl) _ _

/-! ## The result array -/

/-- Every edge's score from the arrays the region finds: the gathered gene and disease rows, the two halves of the first
    layer's weights (already transposed), its bias as a row, the second layer's weights as a column, its bias. -/
def scoresV (c : Dev nD) : S500000.Idx → Elt Ideal .f32 := fun i =>
  rowScore (fun k => V m c main_v10 (ix2 (i 0) k)) (fun k => V m c main_v17 (ix2 (i 0) k))
    (fun k h => V m c main_v19 (ix2 k h)) (fun k h => V m c main_v21 (ix2 k h)) (fun h => V m c main_v23 (ix2 (0 : Fin 1) h))
    (fun h => V m c main_v22 (ix2 h (0 : Fin 1))) (V m c main_v24 (ix2 (0 : Fin 1) (0 : Fin 1)))

/-- Entry r of what the body leaves at point t, for a row inside the array, is the score of edge 4096 t + r. -/
theorem out_row (c : Dev nD) (t : Fin cfg0.N) (r : Fin 4096) (hr : r.val < win0_0.xsize (grid0.coords t) 0)
    (i : S500000.Idx) (hi : (i 0).val = t.val * 4096 + r.val) :
    outBuf m c t (ix1 r) = scoresV m c i := by
  have hg : (fun k => gBuf m c t (ix2 r k)) = fun k => V m c main_v10 (ix2 (i 0) k) :=
    funext fun k => gBuf_row m c t r hr k _ hi rfl
  have hd : (fun k => dBuf m c t (ix2 r k)) = fun k => V m c main_v17 (ix2 (i 0) k) :=
    funext fun k => dBuf_row m c t r hr k _ hi rfl
  unfold outBuf scoresV
  rw [payload_apply, hg, hd, iblk2_eq, iblk3_eq, iblk4_eq, iblk5_eq, iblk6_eq]

/-- What point t writes back is block t of the scores. -/
theorem flushed_eq (c : Dev nD) (t : Fin cfg0.N) :
    (dats m 0 c).flushed 7 t = ((cfg0.win 7).blk t).view.read (Elt Ideal) (scoresV m c) := by
  funext y
  have hy : (y 0).val < win0_0.xsize (grid0.coords t) 0 := (y 0).isLt
  have e : win0_7.xinj (grid0.coords t) y = ix1 (⟨(y 0).val, Nat.lt_of_lt_of_le (y 0).isLt (win0_7.xsize_le (grid0.coords t) 0)⟩ : Fin 4096) := by
    funext a; match a with | ⟨0, _⟩ => rfl
  show (dats m 0 c).after 7 t (win0_7.xinj (grid0.coords t) y) = scoresV m c (((cfg0.win 7).blk t).view.emb y)
  rw [after0_7, e]
  refine out_row m c t _ hy _ ?_
  show win0_7.index t (0 : Fin 1) * 4096 + 1 * (y 0).val = t.val * 4096 + (y 0).val
  rw [index7 t]; omega

/-- An entry of the array is in point t's block iff it is one of the block's entries inside the array. -/
theorem mem_blk7 (t : Fin cfg0.N) (i : S500000.Idx) :
    i ∈ ((cfg0.win 7).blk t).view.set ↔ win0_7.index t 0 * 4096 ≤ (i 0).val ∧ (i 0).val < win0_7.index t 0 * 4096 + win0_7.xsize (grid0.coords t) 0 := by
  show i ∈ ((View.whole main_v25).slice (win0_7.rect t)).set ↔ _
  rw [View.set_slice_whole, Rect.mem_set_unit]
  refine ⟨fun h => h 0, fun h a => ?_⟩
  match a with
  | ⟨0, _⟩ => exact h

/-- The 123 blocks cover the 500000 entries. -/
theorem cover7 (i : S500000.Idx) : ∃ t : Fin cfg0.N, (cfg0.win 7).flush t = true ∧ i ∈ ((cfg0.win 7).blk t).view.set := by
  have hi : (i 0).val < 500000 := (i 0).isLt
  refine ⟨⟨(i 0).val / 4096, by show (i 0).val / 4096 < 123; omega⟩, flush0_7 _, ?_⟩
  rw [mem_blk7, index7, xsize7_eq, rows_inside]
  show (i 0).val / 4096 * 4096 ≤ (i 0).val ∧ (i 0).val < (i 0).val / 4096 * 4096 + (if (i 0).val / 4096 = 122 then 288 else 4096)
  split <;> omega

/-- After the run the result array holds every edge's score. -/
theorem final_out (c : Dev nD) : (dats m 0 c).arrAt 7 cfg0.N = scoresV m c :=
  (dats m 0 c).arrAt_eq_of_cover 7 (scoresV m c) (fun t _ => flushed_eq m c t) (cover7)

end Cert.Proof.KI

end
-- ==== Proof.KernelIdeal.Host.lean ====
/-
  The arrays the idealized program's region finds, from the program's arguments.

  The host operations before the region gather the gene and disease rows, cut the first layer's weights [256, 512] into
  its two halves and transpose each, recast the first bias as one row, transpose the second layer's weights into a
  column and recast the second bias as one entry. Read at an entry: the halves are W1[h, k] and W1[h, 256 + k] at (k, h),
  the row b1[h] at (0, h), the column W2[0, h] at (h, 0), the entry b2[0]. The gathered rows are, as whole arrays, the
  very terms the reference program gathers (the same index chain and the same gather): they are never opened.
-/
import proofs.«140835_j34230889349178_1_alg».proof.Proof.KernelIdeal.Value
import proofs.«140835_j34230889349178_1_alg».proof.Proof.Gen.ReferenceIdeal.Read
import Idealize.ShloMosaic.Lib.StableHlo.Run
import Idealize.ShloMosaic.Lib.ValueLayout

set_option maxRecDepth 16384

noncomputable section

namespace Cert.Proof.KI

open Cert.KernelIdeal Cert.KernelIdeal.Gen
open Idealize.ShloMosaic Idealize.ShloMosaic.ValueIdx
open Idealize.ShloMosaic.TcCoe Idealize.ShloMosaic.StableHlo
open Idealize.SL Idealize.SL.Sem
open Cert.EdgeScore

variable (m : (ℓ : Loc nD τ sig) → Buf (Elt Ideal) ℓ) (ρ : Dev nD → PrngReg)

set_option maxHeartbeats 1000000 in
/-- The gathered gene rows are the reference's gathered gene rows of the same arguments. -/
theorem geneRows_eq (c : Dev nD) :
    (V m c main_v10 : S500000x256.Idx → Elt Ideal .f32)
      = Cert.ReferenceIdeal.Read.val_main_v10 (F := Ideal) (m ((c : Thread nD τ).loc main_arg0)) (m ((c : Thread nD τ).loc main_arg2)) := by
  dsimp only [Gen.V, Gen.hostOps0]
  after_results_simp <;> rfl
set_option maxHeartbeats 1000000 in
/-- The gathered disease rows likewise. -/
theorem diseaseRows_eq (c : Dev nD) :
    (V m c main_v17 : S500000x256.Idx → Elt Ideal .f32)
      = Cert.ReferenceIdeal.Read.val_main_v17 (F := Ideal) (m ((c : Thread nD τ).loc main_arg1)) (m ((c : Thread nD τ).loc main_arg2)) := by
  dsimp only [Gen.V, Gen.hostOps0]
  after_results_simp <;> rfl

/-- The first half of the first layer's weights, transposed: W1[h, k] at (k, h). -/
theorem w1a_apply (c : Dev nD) (k h : Fin 256) :
    V m c main_v19 (ix2 k h) = m ((c : Thread nD τ).loc main_arg3) (ix2 h (Fin.castAdd 256 k)) := by
  have e : (V m c main_v19 : S256x256.Idx → Elt Ideal .f32)
      = transpose S256x256 [1, 0] (extractStridedSlice S256x256 ![0, 0] (m ((c : Thread nD τ).loc main_arg3)) slices_S256x512_S256x256_0_0)
          transposes_S256x256_S256x256_1_0 := by
    dsimp only [Gen.V, Gen.hostOps0]; after_results_simp <;> rfl
  rw [e, transpose_ix2_apply, slice2_axis1_apply 0 _ _ h k (Fin.castAdd 256 k) (Nat.zero_add _).symm]
/-- The second half: W1[h, 256 + k] at (k, h). -/
theorem w1b_apply (c : Dev nD) (k h : Fin 256) :
    V m c main_v21 (ix2 k h) = m ((c : Thread nD τ).loc main_arg3) (ix2 h (Fin.natAdd 256 k)) := by
  have e : (V m c main_v21 : S256x256.Idx → Elt Ideal .f32)
      = transpose S256x256 [1, 0] (extractStridedSlice S256x256 ![0, 256] (m ((c : Thread nD τ).loc main_arg3)) slices_S256x512_S256x256_0_256)
          transposes_S256x256_S256x256_1_0 := by
    dsimp only [Gen.V, Gen.hostOps0]; after_results_simp <;> rfl
  rw [e, transpose_ix2_apply, slice2_axis1_apply 256 _ _ h k (Fin.natAdd 256 k) rfl]
/-- The first bias as one row: b1[h] at (0, h). -/
theorem b1_apply (c : Dev nD) (h : Fin 256) :
    V m c main_v23 (ix2 (0 : Fin 1) h) = m ((c : Thread nD τ).loc main_arg4) (ix1 h) := by
  have e : (V m c main_v23 : S1x256.Idx → Elt Ideal .f32)
      = shapeCast S1x256 (m ((c : Thread nD τ).loc main_arg4)) shapeCasts_S256_S1x256 := by
    dsimp only [Gen.V, Gen.hostOps0]; after_results_simp <;> rfl
  rw [e, shapeCast_a_1a_apply]
/-- The second layer's weights as one column: W2[0, h] at (h, 0). -/
theorem w2_apply (c : Dev nD) (h : Fin 256) :
    V m c main_v22 (ix2 h (0 : Fin 1)) = m ((c : Thread nD τ).loc main_arg5) (ix2 (0 : Fin 1) h) := by
  have e : (V m c main_v22 : S256x1.Idx → Elt Ideal .f32)
      = transpose S256x1 [1, 0] (m ((c : Thread nD τ).loc main_arg5)) transposes_S1x256_S256x1_1_0 := by
    dsimp only [Gen.V, Gen.hostOps0]; after_results_simp <;> rfl
  rw [e, transpose_ix2_apply]
/-- The second bias as one entry: b2[0] at (0, 0). -/
theorem b2_apply (c : Dev nD) :
    V m c main_v24 (ix2 (0 : Fin 1) (0 : Fin 1)) = m ((c : Thread nD τ).loc main_arg6) (ix1 (0 : Fin 1)) := by
  have e : (V m c main_v24 : S1x1.Idx → Elt Ideal .f32)
      = shapeCast S1x1 (m ((c : Thread nD τ).loc main_arg6)) shapeCasts_S1_S1x1 := by
    dsimp only [Gen.V, Gen.hostOps0]; after_results_simp <;> rfl
  rw [e, shapeCast_a_1a_apply]

/-- The scores read at entry r. -/
theorem scoresV_apply (c : Dev nD) (r : Fin 500000) :
    scoresV m c (ix1 r) = rowScore (fun k => V m c main_v10 (ix2 r k)) (fun k => V m c main_v17 (ix2 r k))
      (fun k h => V m c main_v19 (ix2 k h)) (fun k h => V m c main_v21 (ix2 k h)) (fun h => V m c main_v23 (ix2 (0 : Fin 1) h))
      (fun h => V m c main_v22 (ix2 h (0 : Fin 1))) (V m c main_v24 (ix2 (0 : Fin 1) (0 : Fin 1))) := rfl

/-- So the result array's scores are the edges' scores of the program's arguments, the rows gathered as the reference
    gathers them. -/
theorem scoresV_eq (c : Dev nD) :
    scoresV m c = edgeScores
      (Cert.ReferenceIdeal.Read.val_main_v10 (F := Ideal) (m ((c : Thread nD τ).loc main_arg0)) (m ((c : Thread nD τ).loc main_arg2)))
      (Cert.ReferenceIdeal.Read.val_main_v17 (F := Ideal) (m ((c : Thread nD τ).loc main_arg1)) (m ((c : Thread nD τ).loc main_arg2)))
      (m ((c : Thread nD τ).loc main_arg3)) (m ((c : Thread nD τ).loc main_arg4)) (m ((c : Thread nD τ).loc main_arg5))
      (m ((c : Thread nD τ).loc main_arg6)) := by
  funext i
  obtain ⟨r, rfl⟩ : ∃ r : Fin 500000, i = ix1 r := ⟨i 0, eq_ix1 i⟩
  rw [scoresV_apply, edgeScores_apply, geneRows_eq, diseaseRows_eq]
  have h19 : (fun k h : Fin 256 => V m c main_v19 (ix2 k h)) = fun k h => m ((c : Thread nD τ).loc main_arg3) (ix2 h (Fin.castAdd 256 k)) :=
    funext fun k => funext fun h => w1a_apply m c k h
  have h21 : (fun k h : Fin 256 => V m c main_v21 (ix2 k h)) = fun k h => m ((c : Thread nD τ).loc main_arg3) (ix2 h (Fin.natAdd 256 k)) :=
    funext fun k => funext fun h => w1b_apply m c k h
  have h23 : (fun h : Fin 256 => V m c main_v23 (ix2 (0 : Fin 1) h)) = fun h => m ((c : Thread nD τ).loc main_arg4) (ix1 h) :=
    funext fun h => b1_apply m c h
  have h22 : (fun h : Fin 256 => V m c main_v22 (ix2 h (0 : Fin 1))) = fun h => m ((c : Thread nD τ).loc main_arg5) (ix2 (0 : Fin 1) h) :=
    funext fun h => w2_apply m c h
  rw [h19, h21, h23, h22, b2_apply]

/-- The idealized program's run with its result named: every weakly fair execution ends with the result array at the
    edges' scores of the arguments and the arguments as they were. -/
theorem run_value : θ_run defs (onTc (τ := τ) (main (F := Ideal))) ⟨m, fun _ => 0, ρ⟩ fun r => ∀ c : Dev nD,
      r.2.mem ((c.tc : Thread nD τ).loc main_v25) = edgeScores
        (Cert.ReferenceIdeal.Read.val_main_v10 (F := Ideal) (m ((c : Thread nD τ).loc main_arg0)) (m ((c : Thread nD τ).loc main_arg2)))
        (Cert.ReferenceIdeal.Read.val_main_v17 (F := Ideal) (m ((c : Thread nD τ).loc main_arg1)) (m ((c : Thread nD τ).loc main_arg2)))
        (m ((c : Thread nD τ).loc main_arg3)) (m ((c : Thread nD τ).loc main_arg4)) (m ((c : Thread nD τ).loc main_arg5))
        (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(((h c).1 7).trans (final_out m c)).trans (scoresV_eq m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m ρ)

end Cert.Proof.KI

end
-- ==== Proof.Reference.Value.lean ====
/-
  The reference program's result, entry by entry: the score of every edge.

  The reference joins each edge's gene row and disease row into one row of 512 entries, multiplies by the transposed
  first-layer weights [512, 256], adds the bias, clamps at zero, multiplies by the transposed second-layer weights
  [256, 1] and adds the second bias. The sum over the 512 entries of the joined row is the sum over the gene row's 256
  plus the sum over the disease row's 256, which is the form the kernel computes.
-/
import proofs.«140835_j34230889349178_1_alg».proof.Proof.Gen.ReferenceIdeal.Read
import proofs.«140835_j34230889349178_1_alg».proof.Proof.Spec
import Idealize.ShloMosaic.Lib.Pipeline.Value

noncomputable section

namespace Cert.Proof.Ref

open Cert.ReferenceIdeal Cert.ReferenceIdeal.Gen Cert.ReferenceIdeal.Read
open Idealize.ShloMosaic Idealize.ShloMosaic.ValueIdx
open Cert.EdgeScore

variable (x0 : (⟨S50000x256, .f32⟩ : BufTy).Contents (Elt Ideal)) (x1 : (⟨S20000x256, .f32⟩ : BufTy).Contents (Elt Ideal))
  (x2 : (⟨S2x500000, .i32⟩ : BufTy).Contents (Elt Ideal)) (x3 : (⟨S256x512, .f32⟩ : BufTy).Contents (Elt Ideal))
  (x4 : (⟨S256, .f32⟩ : BufTy).Contents (Elt Ideal)) (x5 : (⟨S1x256, .f32⟩ : BufTy).Contents (Elt Ideal))
  (x6 : (⟨S1, .f32⟩ : BufTy).Contents (Elt Ideal))

/-- The joined row's first 256 entries are the gene row's, -/
theorem joined_left (r : Fin 500000) (k : Fin 256) :
    val_main_v18 (F := Ideal) x0 x1 x2 (ix2 r (Fin.castAdd 256 k)) = val_main_v10 (F := Ideal) x0 x2 (ix2 r k) := by
  unfold val_main_v18
  exact concatenate_pair_apply_left (t := S500000x512) (s₁ := S500000x256) (s₂ := S500000x256) (1 : Fin 2) _ _
    concatenates_S500000x256_S500000x256_S500000x512_d1 (ix2 r (Fin.castAdd 256 k) : S500000x512.Idx) rfl
    (ix2 r k : S500000x256.Idx) (fun b => by match b with | ⟨0, _⟩ => rfl | ⟨1, _⟩ => rfl)
/-- its last 256 the disease row's. -/
theorem joined_right (r : Fin 500000) (k : Fin 256) :
    val_main_v18 (F := Ideal) x0 x1 x2 (ix2 r (Fin.natAdd 256 k)) = val_main_v17 (F := Ideal) x1 x2 (ix2 r k) := by
  unfold val_main_v18
  exact concatenate_pair_apply_right (t := S500000x512) (s₁ := S500000x256) (s₂ := S500000x256) (1 : Fin 2) _ _
    concatenates_S500000x256_S500000x256_S500000x512_d1 (ix2 r (Fin.natAdd 256 k) : S500000x512.Idx) rfl rfl
    (ix2 r k : S500000x256.Idx) (fun b hb => by match b with | ⟨0, _⟩ => rfl | ⟨1, _⟩ => exact absurd rfl hb)
    (by show k.val + 256 = 256 + k.val; omega)

/-- The reference's result is the edges' scores of its arguments, the rows as it gathers them. -/
theorem ref_scores :
    val_main_v30 (F := Ideal) x0 x1 x2 x3 x4 x5 x6
      = edgeScores (val_main_v10 (F := Ideal) x0 x2) (val_main_v17 (F := Ideal) x1 x2) x3 x4 x5 x6 := by
  funext i
  obtain ⟨r, rfl⟩ : ∃ r : Fin 500000, i = ix1 r := ⟨i 0, eq_ix1 i⟩
  rw [val_main_v30_apply, val_main_v29_apply, val_main_v26_apply, val_main_v28_apply, val_main_v27_apply, edgeScores_apply]
  unfold rowScore
  have e6 : idx_main_v27 (idx_main_v28 (idx_main_v30 (ix1 r))) = ix1 (0 : Fin 1) :=
    funext fun a => Fin.ext (by match a with | ⟨0, _⟩ => rfl)
  rw [e6]
  refine congrArg (· + x6 (ix1 (0 : Fin 1))) (Finset.sum_congr rfl fun h _ => ?_)
  have el : lidx_main_v26 (idx_main_v30 (ix1 r)) h = ix2 r h :=
    funext fun a => Fin.ext (by match a with | ⟨0, _⟩ => exact Nat.div_one _ | ⟨1, _⟩ => rfl)
  have er : idx_main_v25 (ridx_main_v26 (idx_main_v30 (ix1 r)) h) = ix2 (0 : Fin 1) h :=
    funext fun a => Fin.ext (by match a with | ⟨0, _⟩ => rfl | ⟨1, _⟩ => rfl)
  rw [el, val_main_v25_apply, er, val_main_v24_apply, val_main_v23_apply, val_main_v20_apply, val_main_v22_apply, val_main_v21_apply,
    val_main_call0_v0_apply, val_main_call0_cst_apply]
  have e4 : idx_main_v21 (idx_main_v22 (ix2 r h)) = ix1 h :=
    funext fun a => Fin.ext (by match a with | ⟨0, _⟩ => rfl)
  have hs : (∑ k : Fin 512, val_main_v18 (F := Ideal) x0 x1 x2 (lidx_main_v20 (ix2 r h) k) * val_main_v19 (F := Ideal) x3 (ridx_main_v20 (ix2 r h) k))
      = (∑ k : Fin 256, val_main_v10 (F := Ideal) x0 x2 (ix2 r k) * x3 (ix2 h (Fin.castAdd 256 k)))
        + ∑ k : Fin 256, val_main_v17 (F := Ideal) x1 x2 (ix2 r k) * x3 (ix2 h (Fin.natAdd 256 k)) := by
    refine (sum_joined fun k => val_main_v18 (F := Ideal) x0 x1 x2 (lidx_main_v20 (ix2 r h) k) * val_main_v19 (F := Ideal) x3 (ridx_main_v20 (ix2 r h) k)).trans ?_
    refine congrArg₂ (· + ·) ?_ ?_
    · refine Finset.sum_congr rfl fun k _ => ?_
      have a : lidx_main_v20 (ix2 r h) (Fin.castAdd 256 k) = ix2 r (Fin.castAdd 256 k) :=
        funext fun a => Fin.ext (by match a with | ⟨0, _⟩ => rfl | ⟨1, _⟩ => rfl)
      have b : idx_main_v19 (ridx_main_v20 (ix2 r h) (Fin.castAdd 256 k)) = ix2 h (Fin.castAdd 256 k) :=
        funext fun a => Fin.ext (by match a with | ⟨0, _⟩ => rfl | ⟨1, _⟩ => rfl)
      rw [a, joined_left, val_main_v19_apply, b]
    · refine Finset.sum_congr rfl fun k _ => ?_
      have a : lidx_main_v20 (ix2 r h) (Fin.natAdd 256 k) = ix2 r (Fin.natAdd 256 k) :=
        funext fun a => Fin.ext (by match a with | ⟨0, _⟩ => rfl | ⟨1, _⟩ => rfl)
      have b : idx_main_v19 (ridx_main_v20 (ix2 r h) (Fin.natAdd 256 k)) = ix2 h (Fin.natAdd 256 k) :=
        funext fun a => Fin.ext (by match a with | ⟨0, _⟩ => rfl | ⟨1, _⟩ => rfl)
      rw [a, joined_right, val_main_v19_apply, b]
  rw [hs, e4, Ideal.ofBits_def, Ideal.ofBits_zero_f32]
  rfl

end Cert.Proof.Ref

end
-- ==== Proof.lean ====
/-
  The certificate: a two-layer network scoring 500000 gene–disease edges, as a pipelined kernel over blocks of 4096
  edges, against the plain program.

  Both programs gather each edge's gene row and disease row with the same host operations. The kernel multiplies the two
  rows by the two halves of the first layer's weights and adds the products; the reference joins the rows and multiplies
  by the whole matrix: a sum over 512 terms against the sum of its two halves. The rest (bias, clamp at zero, second
  layer, second bias) is the same arithmetic on both sides, the changes of float format being the identity at the ideal
  values. So both result arrays are, entry by entry, `Cert.EdgeScore.edgeScores` of the arguments; no law that
  needs finite values is used.

  The frames: each kernel program's run is its pipeline's run, the body run once on whole staging buffers; the last of
  the 123 blocks overhangs the arrays, and the proof data say what the row buffers hold on the rows inside the arrays
  only. At the ideal values the entries of the result that are written back read those rows only; at the word level the
  result's buffer is left unnamed, which the frame does not need. The reference's frame is its run with the result dropped.
-/
import proofs.«140835_j34230889349178_1_alg».proof.Defs
import proofs.«140835_j34230889349178_1_alg».proof.Proof.Gen.Kernel
import proofs.«140835_j34230889349178_1_alg».proof.Proof.Gen.KernelIdeal
import proofs.«140835_j34230889349178_1_alg».proof.Proof.Gen.ReferenceIdeal
import proofs.«140835_j34230889349178_1_alg».proof.Proof.Gen.ReferenceIdeal.Run
import proofs.«140835_j34230889349178_1_alg».proof.Proof.Gen.ReferenceIdeal.Read
import proofs.«140835_j34230889349178_1_alg».proof.Proof.Gen.Pre_finite_inputs
import proofs.«140835_j34230889349178_1_alg».proof.Proof.Kernel.Run
import proofs.«140835_j34230889349178_1_alg».proof.Proof.KernelIdeal.Host
import proofs.«140835_j34230889349178_1_alg».proof.Proof.Reference.Value

noncomputable section

namespace Cert.Proof

open Idealize.ShloMosaic Idealize.ShloMosaic.TcCoe Idealize.SL.Sem

/-- The word-level program runs and leaves its arguments as they were. -/
theorem frame_k : Cert.frame_Kernel := fun m ρ _ => Cert.Proof.K.frame (F := Bits) m ρ

/-- So does its idealization. -/
theorem frame_ki : Cert.frame_KernelIdeal := fun m ρ _ => Cert.Proof.KI.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both idealized programs end with the result array at the edges' scores. -/
theorem algebraic : Cert.algebraic_KernelIdeal_ReferenceIdeal := by
  intro m ρ m' ρ' _ hagree
  refine ⟨_, Cert.Proof.KI.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.Proof.Ref.ref_scores, (hagree c).1, (hagree c).2.1, (hagree c).2.2.1,
    (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
